-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2 : Shape := ⟨2, ![32768, 2]⟩
abbrev S32768x896 : Shape := ⟨2, ![32768, 896]⟩
abbrev S32768x1 : Shape := ⟨2, ![32768, 1]⟩
abbrev S896x2688 : Shape := ⟨2, ![896, 2688]⟩
abbrev S2x1344 : Shape := ⟨2, ![2, 1344]⟩
abbrev S3x1344 : Shape := ⟨2, ![3, 1344]⟩
abbrev S896 : Shape := ⟨1, ![896]⟩
abbrev S448x448 : Shape := ⟨2, ![448, 448]⟩
abbrev S448 : Shape := ⟨1, ![448]⟩
abbrev S448x256 : Shape := ⟨2, ![448, 256]⟩
abbrev S256 : Shape := ⟨1, ![256]⟩
abbrev S_ : Shape := ⟨0, ![]⟩

class Facts : Prop where
  bcast_S_S32768x2 : S_.BroadcastsInDim S32768x2 (![] : Fin 0 → Fin S32768x2.rank)
  reducesTo_S32768x2_S_d0_1 : S32768x2.ReducesTo [0, 1] S_
  h_S_ : 0 < S_.numel
  bcast_S_S32768x896 : S_.BroadcastsInDim S32768x896 (![] : Fin 0 → Fin S32768x896.rank)
  reducesTo_S32768x896_S_d0_1 : S32768x896.ReducesTo [0, 1] S_
  bcast_S_S32768x1 : S_.BroadcastsInDim S32768x1 (![] : Fin 0 → Fin S32768x1.rank)
  reducesTo_S32768x1_S_d0_1 : S32768x1.ReducesTo [0, 1] S_
  bcast_S_S896x2688 : S_.BroadcastsInDim S896x2688 (![] : Fin 0 → Fin S896x2688.rank)
  reducesTo_S896x2688_S_d0_1 : S896x2688.ReducesTo [0, 1] S_
  bcast_S_S2x1344 : S_.BroadcastsInDim S2x1344 (![] : Fin 0 → Fin S2x1344.rank)
  reducesTo_S2x1344_S_d0_1 : S2x1344.ReducesTo [0, 1] S_
  bcast_S_S3x1344 : S_.BroadcastsInDim S3x1344 (![] : Fin 0 → Fin S3x1344.rank)
  reducesTo_S3x1344_S_d0_1 : S3x1344.ReducesTo [0, 1] S_
  bcast_S_S896 : S_.BroadcastsInDim S896 (![] : Fin 0 → Fin S896.rank)
  reducesTo_S896_S_d0 : S896.ReducesTo [0] S_
  bcast_S_S448x448 : S_.BroadcastsInDim S448x448 (![] : Fin 0 → Fin S448x448.rank)
  reducesTo_S448x448_S_d0_1 : S448x448.ReducesTo [0, 1] S_
  bcast_S_S448 : S_.BroadcastsInDim S448 (![] : Fin 0 → Fin S448.rank)
  reducesTo_S448_S_d0 : S448.ReducesTo [0] S_
  bcast_S_S448x256 : S_.BroadcastsInDim S448x256 (![] : Fin 0 → Fin S448x256.rank)
  reducesTo_S448x256_S_d0_1 : S448x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg14 : FVec F S448 .f32) (main_arg15 : FVec F S448x256 .f32) (main_arg16 : FVec F S256 .f32) (main_v63 : IVec S_ 1) (main_v67 : IVec S_ 1) : IVec S_ 1 :=
  let main_v68 : IVec S_ 1 := andi main_v63 main_v67
  let main_v69 : FVec F S448 .f32 := Host.absf main_arg14
  let main_cst_26 : FVec F S_ .f32 := constant S_ .f32 0x7F800000#32
  let main_v70 : FVec F S448 .f32 := broadcastInDim S448 ![] bcast_S_S448 main_cst_26
  let main_v71 : IVec S448 1 := cmpf .olt main_v69 main_v70
  let main_c_27 : IVec S_ 1 := constantI S_ 1 1#1
  let main_v72 : IVec S_ 1 := (fun x v => Host.reduce IntOp.andi x v reducesTo_S448_S_d0 h_S_) main_v71 main_c_27
  let main_v73 : IVec S_ 1 := andi main_v68 main_v72
  let main_v74 : FVec F S448x256 .f32 := Host.absf main_arg15
  let main_cst_28 : FVec F S_ .f32 := constant S_ .f32 0x7F800000#32
  let main_v75 : FVec F S448x256 .f32 := broadcastInDim S448x256 ![] bcast_S_S448x256 main_cst_28
  let main_v76 : IVec S448x256 1 := cmpf .olt main_v74 main_v75
  let main_c_29 : IVec S_ 1 := constantI S_ 1 1#1
  let main_v77 : IVec S_ 1 := (fun x v => Host.reduce IntOp.andi x v reducesTo_S448x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  main_v83

def fn_part3 {F : FTy → Type} [FloatOps F] (main_arg11 : FVec F S448x256 .f32) (main_arg12 : FVec F S256 .f32) (main_arg13 : FVec F S448x448 .f32) (main_arg14 : FVec F S448 .f32) (main_arg15 : FVec F S448x256 .f32) (main_arg16 : FVec F S256 .f32) (main_v48 : IVec S_ 1) (main_v49 : FVec F S448 .f32) (main_v50 : FVec F S448 .f32) : IVec S_ 1 :=
  let main_v51 : IVec S448 1 := cmpf .olt main_v49 main_v50
  let main_c_19 : IVec S_ 1 := constantI S_ 1 1#1
  let main_v52 : IVec S_ 1 := (fun x v => Host.reduce IntOp.andi x v reducesTo_S448_S_d0 h_S_) main_v51 main_c_19
  let main_v53 : IVec S_ 1 := andi main_v48 main_v52
  let main_v54 : FVec F S448x256 .f32 := Host.absf main_arg11
  let main_cst_20 : FVec F S_ .f32 := constant S_ .f32 0x7F800000#32
  let main_v55 : FVec F S448x256 .f32 := broadcastInDim S448x256 ![] bcast_S_S448x256 main_cst_20
  let main_v56 : IVec S448x256 1 := cmpf .olt main_v54 main_v55
  let main_c_21 : IVec S_ 1 := constantI S_ 1 1#1
  let main_v57 : IVec S_ 1 := (fun x v => Host.reduce IntOp.andi x v reducesTo_S448x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S448x448 .f32 := Host.absf main_arg13
  let main_cst_24 : FVec F S_ .f32 := constant S_ .f32 0x7F800000#32
  let main_v65 : FVec F S448x448 .f32 := broadcastInDim S448x448 ![] bcast_S_S448x448 main_cst_24
  let main_v66 : IVec S448x448 1 := cmpf .olt main_v64 main_v65
  let main_c_25 : IVec S_ 1 := constantI S_ 1 1#1
  let main_v67 : IVec S_ 1 := (fun x v => Host.reduce IntOp.andi x v reducesTo_S448x448_S_d0_1 h_S_) main_v66 main_c_25
  fn_part4 (F := F) main_arg14 main_arg15 main_arg16 main_v63 main_v67

def fn_part2 {F : FTy → Type} [FloatOps F] (main_arg7 : FVec F S896 .f32) (main_arg8 : FVec F S896 .f32) (main_arg9 : FVec F S448x448 .f32) (main_arg10 : FVec F S448 .f32) (main_arg11 : FVec F S448x256 .f32) (main_arg12 : FVec F S256 .f32) (main_arg13 : FVec F S448x448 .f32) (main_arg14 : FVec F S448 .f32) (main_arg15 : FVec F S448x256 .f32) (main_arg16 : FVec F S256 .f32) (main_v33 : IVec S_ 1) : IVec S_ 1 :=
  let main_v34 : FVec F S896 .f32 := Host.absf main_arg7
  let main_cst_12 : FVec F S_ .f32 := constant S_ .f32 0x7F800000#32
  let main_v35 : FVec F S896 .f32 := broadcastInDim S896 ![] bcast_S_S896 main_cst_12
  let main_v36 : IVec S896 1 := cmpf .olt main_v34 main_v35
  let main_c_13 : IVec S_ 1 := constantI S_ 1 1#1
  let main_v37 : IVec S_ 1 := (fun x v => Host.reduce IntOp.andi x v reducesTo_S896_S_d0 h_S_) main_v36 main_c_13
  let main_v38 : IVec S_ 1 := andi main_v33 main_v37
  let main_v39 : FVec F S896 .f32 := Host.absf main_arg8
  let main_cst_14 : FVec F S_ .f32 := constant S_ .f32 0x7F800000#32
  let main_v40 : FVec F S896 .f32 := broadcastInDim S896 ![] bcast_S_S896 main_cst_14
  let main_v41 : IVec S896 1 := cmpf .olt main_v39 main_v40
  let main_c_15 : IVec S_ 1 := constantI S_ 1 1#1
  let main_v42 : IVec S_ 1 := (fun x v => Host.reduce IntOp.andi x v reducesTo_S896_S_d0 h_S_) main_v41 main_c_15
  let main_v43 : IVec S_ 1 := andi main_v38 main_v42
  let main_v44 : FVec F S448x448 .f32 := Host.absf main_arg9
  let main_cst_16 : FVec F S_ .f32 := constant S_ .f32 0x7F800000#32
  let main_v45 : FVec F S448x448 .f32 := broadcastInDim S448x448 ![] bcast_S_S448x448 main_cst_16
  let main_v46 : IVec S448x448 1 := cmpf .olt main_v44 main_v45
  let main_c_17 : IVec S_ 1 := constantI S_ 1 1#1
  let main_v47 : IVec S_ 1 := (fun x v => Host.reduce IntOp.andi x v reducesTo_S448x448_S_d0_1 h_S_) main_v46 main_c_17
  let main_v48 : IVec S_ 1 := andi main_v43 main_v47
  let main_v49 : FVec F S448 .f32 := Host.absf main_arg10
  let main_cst_18 : FVec F S_ .f32 := constant S_ .f32 0x7F800000#32
  let main_v50 : FVec F S448 .f32 := broadcastInDim S448 ![] bcast_S_S448 main_cst_18
  fn_part3 (F := F) main_arg11 main_arg12 main_arg13 main_arg14 main_arg15 main_arg16 main_v48 main_v49 main_v50

def fn_part1 {F : FTy → Type} [FloatOps F] (main_arg4 : FVec F S2x1344 .f32) (main_arg5 : FVec F S3x1344 .f32) (main_arg6 : FVec F S896 .f32) (main_arg7 : FVec F S896 .f32) (main_arg8 : FVec F S896 .f32) (main_arg9 : FVec F S448x448 .f32) (main_arg10 : FVec F S448 .f32) (main_arg11 : FVec F S448x256 .f32) (main_arg12 : FVec F S256 .f32) (main_arg13 : FVec F S448x448 .f32) (main_arg14 : FVec F S448 .f32) (main_arg15 : FVec F S448x256 .f32) (main_arg16 : FVec F S256 .f32) (main_v13 : IVec S_ 1) (main_v16 : IVec S896x2688 1) : IVec S_ 1 :=
  let main_c_5 : IVec S_ 1 := constantI S_ 1 1#1
  let main_v17 : IVec S_ 1 := (fun x v => Host.reduce IntOp.andi x v reducesTo_S896x2688_S_d0_1 h_S_) main_v16 main_c_5
  let main_v18 : IVec S_ 1 := andi main_v13 main_v17
  let main_v19 : FVec F S2x1344 .f32 := Host.absf main_arg4
  let main_cst_6 : FVec F S_ .f32 := constant S_ .f32 0x7F800000#32
  let main_v20 : FVec F S2x1344 .f32 := broadcastInDim S2x1344 ![] bcast_S_S2x1344 main_cst_6
  let main_v21 : IVec S2x1344 1 := cmpf .olt main_v19 main_v20
  let main_c_7 : IVec S_ 1 := constantI S_ 1 1#1
  let main_v22 : IVec S_ 1 := (fun x v => Host.reduce IntOp.andi x v reducesTo_S2x1344_S_d0_1 h_S_) main_v21 main_c_7
  let main_v23 : IVec S_ 1 := andi main_v18 main_v22
  let main_v24 : FVec F S3x1344 .f32 := Host.absf main_arg5
  let main_cst_8 : FVec F S_ .f32 := constant S_ .f32 0x7F800000#32
  let main_v25 : FVec F S3x1344 .f32 := broadcastInDim S3x1344 ![] bcast_S_S3x1344 main_cst_8
  let main_v26 : IVec S3x1344 1 := cmpf .olt main_v24 main_v25
  let main_c_9 : IVec S_ 1 := constantI S_ 1 1#1
  let main_v27 : IVec S_ 1 := (fun x v => Host.reduce IntOp.andi x v reducesTo_S3x1344_S_d0_1 h_S_) main_v26 main_c_9
  let main_v28 : IVec S_ 1 := andi main_v23 main_v27
  let main_v29 : FVec F S896 .f32 := Host.absf main_arg6
  let main_cst_10 : FVec F S_ .f32 := constant S_ .f32 0x7F800000#32
  let main_v30 : FVec F S896 .f32 := broadcastInDim S896 ![] bcast_S_S896 main_cst_10
  let main_v31 : IVec S896 1 := cmpf .olt main_v29 main_v30
  let main_c_11 : IVec S_ 1 := constantI S_ 1 1#1
  let main_v32 : IVec S_ 1 := (fun x v => Host.reduce IntOp.andi x v reducesTo_S896_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S32768x2 .f32) (main_arg1 : FVec F S32768x896 .f32) (main_arg2 : FVec F S32768x1 .f32) (main_arg3 : FVec F S896x2688 .f32) (main_arg4 : FVec F S2x1344 .f32) (main_arg5 : FVec F S3x1344 .f32) (main_arg6 : FVec F S896 .f32) (main_arg7 : FVec F S896 .f32) (main_arg8 : FVec F S896 .f32) (main_arg9 : FVec F S448x448 .f32) (main_arg10 : FVec F S448 .f32) (main_arg11 : FVec F S448x256 .f32) (main_arg12 : FVec F S256 .f32) (main_arg13 : FVec F S448x448 .f32) (main_arg14 : FVec F S448 .f32) (main_arg15 : FVec F S448x256 .f32) (main_arg16 : FVec F S256 .f32) : IVec S_ 1 :=
  let main_v0 : FVec F S32768x2 .f32 := Host.absf main_arg0
  let main_cst : FVec F S_ .f32 := constant S_ .f32 0x7F800000#32
  let main_v1 : FVec F S32768x2 .f32 := broadcastInDim S32768x2 ![] bcast_S_S32768x2 main_cst
  let main_v2 : IVec S32768x2 1 := cmpf .olt main_v0 main_v1
  let main_c : IVec S_ 1 := constantI S_ 1 1#1
  let main_v3 : IVec S_ 1 := (fun x v => Host.reduce IntOp.andi x v reducesTo_S32768x2_S_d0_1 h_S_) main_v2 main_c
  let main_v4 : FVec F S32768x896 .f32 := Host.absf main_arg1
  let main_cst_0 : FVec F S_ .f32 := constant S_ .f32 0x7F800000#32
  let main_v5 : FVec F S32768x896 .f32 := broadcastInDim S32768x896 ![] bcast_S_S32768x896 main_cst_0
  let main_v6 : IVec S32768x896 1 := cmpf .olt main_v4 main_v5
  let main_c_1 : IVec S_ 1 := constantI S_ 1 1#1
  let main_v7 : IVec S_ 1 := (fun x v => Host.reduce IntOp.andi x v reducesTo_S32768x896_S_d0_1 h_S_) main_v6 main_c_1
  let main_v8 : IVec S_ 1 := andi main_v3 main_v7
  let main_v9 : FVec F S32768x1 .f32 := Host.absf main_arg2
  let main_cst_2 : FVec F S_ .f32 := constant S_ .f32 0x7F800000#32
  let main_v10 : FVec F S32768x1 .f32 := broadcastInDim S32768x1 ![] bcast_S_S32768x1 main_cst_2
  let main_v11 : IVec S32768x1 1 := cmpf .olt main_v9 main_v10
  let main_c_3 : IVec S_ 1 := constantI S_ 1 1#1
  let main_v12 : IVec S_ 1 := (fun x v => Host.reduce IntOp.andi x v reducesTo_S32768x1_S_d0_1 h_S_) main_v11 main_c_3
  let main_v13 : IVec S_ 1 := andi main_v8 main_v12
  let main_v14 : FVec F S896x2688 .f32 := Host.absf main_arg3
  let main_cst_4 : FVec F S_ .f32 := constant S_ .f32 0x7F800000#32
  let main_v15 : FVec F S896x2688 .f32 := broadcastInDim S896x2688 ![] bcast_S_S896x2688 main_cst_4
  let main_v16 : IVec S896x2688 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S32768x2 : Shape := ⟨2, ![32768, 2]⟩
abbrev S32768x896 : Shape := ⟨2, ![32768, 896]⟩
abbrev S32768x1 : Shape := ⟨2, ![32768, 1]⟩
abbrev S896x2688 : Shape := ⟨2, ![896, 2688]⟩
abbrev S2x1344 : Shape := ⟨2, ![2, 1344]⟩
abbrev S3x1344 : Shape := ⟨2, ![3, 1344]⟩
abbrev S896 : Shape := ⟨1, ![896]⟩
abbrev S448x448 : Shape := ⟨2, ![448, 448]⟩
abbrev S448 : Shape := ⟨1, ![448]⟩
abbrev S448x256 : Shape := ⟨2, ![448, 256]⟩
abbrev S256 : Shape := ⟨1, ![256]⟩
abbrev S1x896 : Shape := ⟨2, ![1, 896]⟩
abbrev S1x448 : Shape := ⟨2, ![1, 448]⟩
abbrev S1x256 : Shape := ⟨2, ![1, 256]⟩
abbrev S32768x256 : Shape := ⟨2, ![32768, 256]⟩
abbrev S512x2 : Shape := ⟨2, ![512, 2]⟩
abbrev S512x896 : Shape := ⟨2, ![512, 896]⟩
abbrev S512x1 : Shape := ⟨2, ![512, 1]⟩
abbrev S512x256 : Shape := ⟨2, ![512, 256]⟩
abbrev S896x448 : Shape := ⟨2, ![896, 448]⟩
abbrev S512x448 : Shape := ⟨2, ![512, 448]⟩
abbrev S2x448 : Shape := ⟨2, ![2, 448]⟩

abbrev nBuf : Space → Nat
  | .hbm => 34
  | .vmem => 26
  | .smem => 0
  | _ => 0

abbrev bufTy : (tb : Table) → Fin (tcTables nBuf tb) → BufTy
  | .hbm, ⟨0, _⟩ => ⟨S32768x2, .f32⟩
  | .hbm, ⟨1, _⟩ => ⟨S32768x896, .f32⟩
  | .hbm, ⟨2, _⟩ => ⟨S32768x1, .f32⟩
  | .hbm, ⟨3, _⟩ => ⟨S896x2688, .f32⟩
  | .hbm, ⟨4, _⟩ => ⟨S2x1344, .f32⟩
  | .hbm, ⟨5, _⟩ => ⟨S3x1344, .f32⟩
  | .hbm, ⟨6, _⟩ => ⟨S896, .f32⟩
  | .hbm, ⟨7, _⟩ => ⟨S896, .f32⟩
  | .hbm, ⟨8, _⟩ => ⟨S896, .f32⟩
  | .hbm, ⟨9, _⟩ => ⟨S448x448, .f32⟩
  | .hbm, ⟨10, _⟩ => ⟨S448, .f32⟩
  | .hbm, ⟨11, _⟩ => ⟨S448x256, .f32⟩
  | .hbm, ⟨12, _⟩ => ⟨S256, .f32⟩
  | .hbm, ⟨13, _⟩ => ⟨S448x448, .f32⟩
  | .hbm, ⟨14, _⟩ => ⟨S448, .f32⟩
  | .hbm, ⟨15, _⟩ => ⟨S448x256, .f32⟩
  | .hbm, ⟨16, _⟩ => ⟨S256, .f32⟩
  | .hbm, ⟨17, _⟩ => ⟨S896x2688, .bf16⟩
  | .hbm, ⟨18, _⟩ => ⟨S2x1344, .bf16⟩
  | .hbm, ⟨19, _⟩ => ⟨S3x1344, .bf16⟩
  | .hbm, ⟨20, _⟩ => ⟨S448x448, .bf16⟩
  | .hbm, ⟨21, _⟩ => ⟨S448x256, .bf16⟩
  | .hbm, ⟨22, _⟩ => ⟨S448x448, .bf16⟩
  | .hbm, ⟨23, _⟩ => ⟨S448x256, .bf16⟩
  | .hbm, ⟨24, _⟩ => ⟨S1x896, .f32⟩
  | .hbm, ⟨25, _⟩ => ⟨S1x896, .f32⟩
  | .hbm, ⟨26, _⟩ => ⟨S1x896, .f32⟩
  | .hbm, ⟨27, _⟩ => ⟨S1x448, .f32⟩
  | .hbm, ⟨28, _⟩ => ⟨S1x256, .f32⟩
  | .hbm, ⟨29, _⟩ => ⟨S1x448, .f32⟩
  | .hbm, ⟨30, _⟩ => ⟨S1x256, .f32⟩
  | .hbm, ⟨31, _⟩ => ⟨S32768x256, .f32⟩
  | .hbm, ⟨32, _⟩ => ⟨S32768x256, .f32⟩
  | .hbm, ⟨33, _⟩ => ⟨S32768x896, .f32⟩
  | .local _ .vmem, ⟨0, _⟩ => ⟨S512x2, .f32⟩
  | .local _ .vmem, ⟨1, _⟩ => ⟨S512x2, .f32⟩
  | .local _ .vmem, ⟨2, _⟩ => ⟨S512x896, .f32⟩
  | .local _ .vmem, ⟨3, _⟩ => ⟨S512x896, .f32⟩
  | .local _ .vmem, ⟨4, _⟩ => ⟨S512x1, .f32⟩
  | .local _ .vmem, ⟨5, _⟩ => ⟨S512x1, .f32⟩
  | .local _ .vmem, ⟨6, _⟩ => ⟨S896x2688, .bf16⟩
  | .local _ .vmem, ⟨7, _⟩ => ⟨S2x1344, .bf16⟩
  | .local _ .vmem, ⟨8, _⟩ => ⟨S3x1344, .bf16⟩
  | .local _ .vmem, ⟨9, _⟩ => ⟨S1x896, .f32⟩
  | .local _ .vmem, ⟨10, _⟩ => ⟨S1x896, .f32⟩
  | .local _ .vmem, ⟨11, _⟩ => ⟨S1x896, .f32⟩
  | .local _ .vmem, ⟨12, _⟩ => ⟨S448x448, .bf16⟩
  | .local _ .vmem, ⟨13, _⟩ => ⟨S1x448, .f32⟩
  | .local _ .vmem, ⟨14, _⟩ => ⟨S448x256, .bf16⟩
  | .local _ .vmem, ⟨15, _⟩ => ⟨S1x256, .f32⟩
  | .local _ .vmem, ⟨16, _⟩ => ⟨S448x448, .bf16⟩
  | .local _ .vmem, ⟨17, _⟩ => ⟨S1x448, .f32⟩
  | .local _ .vmem, ⟨18, _⟩ => ⟨S448x256, .bf16⟩
  | .local _ .vmem, ⟨19, _⟩ => ⟨S1x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x896, .f32⟩
  | .local _ .vmem, ⟨25, _⟩ => ⟨S512x896, .f32⟩
  | _, _ => ⟨S32768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S896x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1344 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1344 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x896 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x896 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x896 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S448x448 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x448 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S448x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S448x448 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x448 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S448x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x896 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bitsLt_bf16_f32 : FTy.bits .bf16 < FTy.bits .f32
  shapeCasts_S896_S1x896 : S896.ShapeCasts S1x896
  shapeCasts_S448_S1x448 : S448.ShapeCasts S1x448
  shapeCasts_S256_S1x256 : S256.ShapeCasts S1x256
  inb_S512x896_S512x896_0_0 : ∀ a, (![0, 0] : Fin 2 → Nat) a + S512x896.size a ≤ S512x896.size a
  h_S512x896 : 0 < S512x896.numel
  inb_S512x2_S512x2_0_0 : ∀ a, (![0, 0] : Fin 2 → Nat) a + S512x2.size a ≤ S512x2.size a
  h_S512x2 : 0 < S512x2.numel
  inb_S512x1_S512x1_0_0 : ∀ a, (![0, 0] : Fin 2 → Nat) a + S512x1.size a ≤ S512x1.size a
  h_S512x1 : 0 < S512x1.numel
  inb_S1x896_S1x448_0_0 : ∀ a, (![0, 0] : Fin 2 → Nat) a + S1x448.size a ≤ S1x896.size a
  h_S1x448 : 0 < S1x448.numel
  shapeCasts_S1x448_S1x448 : S1x448.ShapeCasts S1x448
  inb_S1x896_S1x448_0_448 : ∀ a, (![0, 448] : Fin 2 → Nat) a + S1x448.size a ≤ S1x896.size a
  inb_S896x2688_S896x448_0_0 : ∀ a, (![0, 0] : Fin 2 → Nat) a + S896x448.size a ≤ S896x2688.size a
  h_S896x448 : 0 < S896x448.numel
  shapeCasts_S896x448_S896x448 : S896x448.ShapeCasts S896x448
  inb_S896x2688_S896x448_0_448 : ∀ a, (![0, 448] : Fin 2 → Nat) a + S896x448.size a ≤ S896x2688.size a
  inb_S2x1344_S2x448_0_0 : ∀ a, (![0, 0] : Fin 2 → Nat) a + S2x448.size a ≤ S2x1344.size a
  h_S2x448 : 0 < S2x448.numel
  shapeCasts_S2x448_S2x448 : S2x448.ShapeCasts S2x448
  inb_S3x1344_S2x448_0_0 : ∀ a, (![0, 0] : Fin 2 → Nat) a + S2x448.size a ≤ S3x1344.size a
  inb_S3x1344_S1x448_2_0 : ∀ a, (![2, 0] : Fin 2 → Nat) a + S1x448.size a ≤ S3x1344.size a
  broadcasts_S512x1_S512x448 : S512x1.Broadcasts S512x448
  broadcasts_S1x448_S512x448 : S1x448.Broadcasts S512x448
  inb_S896x2688_S896x448_0_896 : ∀ a, (![0, 896] : Fin 2 → Nat) a + S896x448.size a ≤ S896x2688.size a
  inb_S896x2688_S896x448_0_1344 : ∀ a, (![0, 1344] : Fin 2 → Nat) a + S896x448.size a ≤ S896x2688.size a
  inb_S2x1344_S2x448_0_448 : ∀ a, (![0, 448] : Fin 2 → Nat) a + S2x448.size a ≤ S2x1344.size a
  inb_S3x1344_S2x448_0_448 : ∀ a, (![0, 448] : Fin 2 → Nat) a + S2x448.size a ≤ S3x1344.size a
  inb_S3x1344_S1x448_2_448 : ∀ a, (![2, 448] : Fin 2 → Nat) a + S1x448.size a ≤ S3x1344.size a
  inb_S896x2688_S896x448_0_1792 : ∀ a, (![0, 1792] : Fin 2 → Nat) a + S896x448.size a ≤ S896x2688.size a
  inb_S896x2688_S896x448_0_2240 : ∀ a, (![0, 2240] : Fin 2 → Nat) a + S896x448.size a ≤ S896x2688.size a
  inb_S2x1344_S2x448_0_896 : ∀ a, (![0, 896] : Fin 2 → Nat) a + S2x448.size a ≤ S2x1344.size a
  inb_S3x1344_S2x448_0_896 : ∀ a, (![0, 896] : Fin 2 → Nat) a + S2x448.size a ≤ S3x1344.size a
  inb_S3x1344_S1x448_2_896 : ∀ a, (![2, 896] : Fin 2 → Nat) a + S1x448.size a ≤ S3x1344.size a
  slices_S512x896_o0_0_S512x448 : S512x896.Slices ![0, 0] S512x448
  slices_S512x896_o0_448_S512x448 : S512x896.Slices ![0, 448] S512x448
  inb_S512x896_S512x448_0_0 : ∀ a, (![0, 0] : Fin 2 → Nat) a + S512x448.size a ≤ S512x896.size a
  h_S512x448 : 0 < S512x448.numel
  inb_S512x896_S512x448_0_448 : ∀ a, (![0, 448] : Fin 2 → Nat) a + S512x448.size a ≤ S512x896.size a
  inb_S448x448_S448x448_0_0 : ∀ a, (![0, 0] : Fin 2 → Nat) a + S448x448.size a ≤ S448x448.size a
  h_S448x448 : 0 < S448x448.numel
  shapeCasts_S448x448_S448x448 : S448x448.ShapeCasts S448x448
  inb_S1x448_S1x448_0_0 : ∀ a, (![0, 0] : Fin 2 → Nat) a + S1x448.size a ≤ S1x448.size a
  inb_S448x256_S448x256_0_0 : ∀ a, (![0, 0] : Fin 2 → Nat) a + S448x256.size a ≤ S448x256.size a
  h_S448x256 : 0 < S448x256.numel
  shapeCasts_S448x256_S448x256 : S448x256.ShapeCasts S448x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x896_S896x448_S512x448_1_0_0_1_n_n_wf : DotDims.WF S512x896 S896x448 S512x448 [1] [0] [0] [1] [] []
  dot_S512x2_S2x448_S512x448_1_0_0_1_n_n_wf : DotDims.WF S512x2 S2x448 S512x448 [1] [0] [0] [1] [] []
  dot_S512x448_S448x448_S512x448_1_0_0_1_n_n_wf : DotDims.WF S512x448 S448x448 S512x448 [1] [0] [0] [1] [] []
  dot_S512x448_S448x256_S512x256_1_0_0_1_n_n_wf : DotDims.WF S512x448 S448x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S32768x2.size a
  hwx0_0 : ∀ i : grid0.Coords, EltTy.bits .f32 = 32 ∨ (Rect.block (s := S32768x2) S512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x896.size a ≤ S32768x896.size a
  hwx0_1 : ∀ i : grid0.Coords, EltTy.bits .f32 = 32 ∨ (Rect.block (s := S32768x896) S512x896.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S32768x1.size a
  hwx0_2 : ∀ i : grid0.Coords, EltTy.bits .f32 = 32 ∨ (Rect.block (s := S32768x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S896x2688.size a ≤ S896x2688.size a
  hwx0_3 : ∀ i : grid0.Coords, EltTy.bits .bf16 = 32 ∨ (Rect.block (s := S896x2688) S896x2688.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1344.size a ≤ S2x1344.size a
  hwx0_4 : ∀ i : grid0.Coords, EltTy.bits .bf16 = 32 ∨ (Rect.block (s := S2x1344) S2x1344.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1344.size a ≤ S3x1344.size a
  hwx0_5 : ∀ i : grid0.Coords, EltTy.bits .bf16 = 32 ∨ (Rect.block (s := S3x1344) S3x1344.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x896.size a ≤ S1x896.size a
  hwx0_6 : ∀ i : grid0.Coords, EltTy.bits .f32 = 32 ∨ (Rect.block (s := S1x896) S1x896.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x896.size a ≤ S1x896.size a
  hwx0_7 : ∀ i : grid0.Coords, EltTy.bits .f32 = 32 ∨ (Rect.block (s := S1x896) S1x896.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x896.size a ≤ S1x896.size a
  hwx0_8 : ∀ i : grid0.Coords, EltTy.bits .f32 = 32 ∨ (Rect.block (s := S1x896) S1x896.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S448x448.size a ≤ S448x448.size a
  hwx0_9 : ∀ i : grid0.Coords, EltTy.bits .bf16 = 32 ∨ (Rect.block (s := S448x448) S448x448.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x448.size a ≤ S1x448.size a
  hwx0_10 : ∀ i : grid0.Coords, EltTy.bits .f32 = 32 ∨ (Rect.block (s := S1x448) S1x448.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S448x256.size a ≤ S448x256.size a
  hwx0_11 : ∀ i : grid0.Coords, EltTy.bits .bf16 = 32 ∨ (Rect.block (s := S448x256) S448x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S448x448.size a ≤ S448x448.size a
  hwx0_13 : ∀ i : grid0.Coords, EltTy.bits .bf16 = 32 ∨ (Rect.block (s := S448x448) S448x448.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x448.size a ≤ S1x448.size a
  hwx0_14 : ∀ i : grid0.Coords, EltTy.bits .f32 = 32 ∨ (Rect.block (s := S1x448) S1x448.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S448x256.size a ≤ S448x256.size a
  hwx0_15 : ∀ i : grid0.Coords, EltTy.bits .bf16 = 32 ∨ (Rect.block (s := S448x256) S448x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x256.size a ≤ S32768x256.size a
  hwx0_17 : ∀ i : grid0.Coords, EltTy.bits .f32 = 32 ∨ (Rect.block (s := S32768x256) S512x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x256.size a ≤ S32768x256.size a
  hwx0_18 : ∀ i : grid0.Coords, EltTy.bits .f32 = 32 ∨ (Rect.block (s := S32768x256) S512x256.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x896.size a ≤ S32768x896.size a
  hwx0_19 : ∀ i : grid0.Coords, EltTy.bits .f32 = 32 ∨ (Rect.block (s := S32768x896) S512x896.size (cc0_transform_19 i) (hinb0_19 i)).WholeWords (EltTy.packing .f32)

variable [Facts₀]

def dot_S512x896_S896x448_S512x448_1_0_0_1_n_n : DotDims S512x896 S896x448 S512x448 where
  lhsContracting := [1]
  rhsContracting := [0]
  lhsNonContracting := [0]
  rhsNonContracting := [1]
  lhsBatch := []
  rhsBatch := []
  wf := dot_S512x896_S896x448_S512x448_1_0_0_1_n_n_wf
def dot_S512x2_S2x448_S512x448_1_0_0_1_n_n : DotDims S512x2 S2x448 S512x448 where
  lhsContracting := [1]
  rhsContracting := [0]
  lhsNonContracting := [0]
  rhsNonContracting := [1]
  lhsBatch := []
  rhsBatch := []
  wf := dot_S512x2_S2x448_S512x448_1_0_0_1_n_n_wf
def dot_S512x448_S448x448_S512x448_1_0_0_1_n_n : DotDims S512x448 S448x448 S512x448 where
  lhsContracting := [1]
  rhsContracting := [0]
  lhsNonContracting := [0]
  rhsNonContracting := [1]
  lhsBatch := []
  rhsBatch := []
  wf := dot_S512x448_S448x448_S512x448_1_0_0_1_n_n_wf
def dot_S512x448_S448x256_S512x256_1_0_0_1_n_n : DotDims S512x448 S448x256 S512x256 where
  lhsContracting := [1]
  rhsContracting := [0]
  lhsNonContracting := [0]
  rhsNonContracting := [1]
  lhsBatch := []
  rhsBatch := []
  wf := dot_S512x448_S448x256_S512x256_1_0_0_1_n_n_wf

abbrev win0_0 : Pipeline.Window sig grid0 :=
  Pipeline.Window.ofSpec (Memref.whole main_arg0) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x896.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S896x2688.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2x1344.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S3x1344.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x896.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x896.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x896.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S448x448.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x448.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S448x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S448x448.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v12) S1x448.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v6) S448x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v13) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v14_0) S512x256.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v14_1) S512x256.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v14_2) S512x896.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S32768x2 : Shape := ⟨2, ![32768, 2]⟩
abbrev S32768x896 : Shape := ⟨2, ![32768, 896]⟩
abbrev S32768x1 : Shape := ⟨2, ![32768, 1]⟩
abbrev S896x2688 : Shape := ⟨2, ![896, 2688]⟩
abbrev S2x1344 : Shape := ⟨2, ![2, 1344]⟩
abbrev S3x1344 : Shape := ⟨2, ![3, 1344]⟩
abbrev S896 : Shape := ⟨1, ![896]⟩
abbrev S448x448 : Shape := ⟨2, ![448, 448]⟩
abbrev S448 : Shape := ⟨1, ![448]⟩
abbrev S448x256 : Shape := ⟨2, ![448, 256]⟩
abbrev S256 : Shape := ⟨1, ![256]⟩
abbrev S32768x2688 : Shape := ⟨2, ![32768, 2688]⟩
abbrev S32768x1344 : Shape := ⟨2, ![32768, 1344]⟩
abbrev S32768x448 : Shape := ⟨2, ![32768, 448]⟩
abbrev S32768x3 : Shape := ⟨2, ![32768, 3]⟩
abbrev S1x896 : Shape := ⟨2, ![1, 896]⟩
abbrev S_ : Shape := ⟨0, ![]⟩
abbrev S1x448 : Shape := ⟨2, ![1, 448]⟩
abbrev S32768x256 : Shape := ⟨2, ![32768, 256]⟩
abbrev S1x256 : Shape := ⟨2, ![1, 256]⟩

abbrev nBuf : Space → Nat
  | .hbm => 93
  | .vmem => 0
  | .smem => 0
  | _ => 0

abbrev bufTy : (tb : Table) → Fin (tcTables nBuf tb) → BufTy
  | .hbm, ⟨0, _⟩ => ⟨S32768x2, .f32⟩
  | .hbm, ⟨1, _⟩ => ⟨S32768x896, .f32⟩
  | .hbm, ⟨2, _⟩ => ⟨S32768x1, .f32⟩
  | .hbm, ⟨3, _⟩ => ⟨S896x2688, .f32⟩
  | .hbm, ⟨4, _⟩ => ⟨S2x1344, .f32⟩
  | .hbm, ⟨5, _⟩ => ⟨S3x1344, .f32⟩
  | .hbm, ⟨6, _⟩ => ⟨S896, .f32⟩
  | .hbm, ⟨7, _⟩ => ⟨S896, .f32⟩
  | .hbm, ⟨8, _⟩ => ⟨S896, .f32⟩
  | .hbm, ⟨9, _⟩ => ⟨S448x448, .f32⟩
  | .hbm, ⟨10, _⟩ => ⟨S448, .f32⟩
  | .hbm, ⟨11, _⟩ => ⟨S448x256, .f32⟩
  | .hbm, ⟨12, _⟩ => ⟨S256, .f32⟩
  | .hbm, ⟨13, _⟩ => ⟨S448x448, .f32⟩
  | .hbm, ⟨14, _⟩ => ⟨S448, .f32⟩
  | .hbm, ⟨15, _⟩ => ⟨S448x256, .f32⟩
  | .hbm, ⟨16, _⟩ => ⟨S256, .f32⟩
  | .hbm, ⟨17, _⟩ => ⟨S32768x2688, .f32⟩
  | .hbm, ⟨18, _⟩ => ⟨S32768x896, .f32⟩
  | .hbm, ⟨19, _⟩ => ⟨S32768x896, .f32⟩
  | .hbm, ⟨20, _⟩ => ⟨S32768x896, .f32⟩
  | .hbm, ⟨21, _⟩ => ⟨S32768x1344, .f32⟩
  | .hbm, ⟨22, _⟩ => ⟨S32768x448, .f32⟩
  | .hbm, ⟨23, _⟩ => ⟨S32768x448, .f32⟩
  | .hbm, ⟨24, _⟩ => ⟨S32768x448, .f32⟩
  | .hbm, ⟨25, _⟩ => ⟨S32768x3, .f32⟩
  | .hbm, ⟨26, _⟩ => ⟨S32768x1344, .f32⟩
  | .hbm, ⟨27, _⟩ => ⟨S32768x448, .f32⟩
  | .hbm, ⟨28, _⟩ => ⟨S32768x448, .f32⟩
  | .hbm, ⟨29, _⟩ => ⟨S32768x448, .f32⟩
  | .hbm, ⟨30, _⟩ => ⟨S32768x896, .f32⟩
  | .hbm, ⟨31, _⟩ => ⟨S32768x896, .f32⟩
  | .hbm, ⟨32, _⟩ => ⟨S32768x896, .f32⟩
  | .hbm, ⟨33, _⟩ => ⟨S32768x896, .f32⟩
  | .hbm, ⟨34, _⟩ => ⟨S1x896, .f32⟩
  | .hbm, ⟨35, _⟩ => ⟨S32768x896, .f32⟩
  | .hbm, ⟨36, _⟩ => ⟨S32768x896, .f32⟩
  | .hbm, ⟨37, _⟩ => ⟨S32768x896, .f32⟩
  | .hbm, ⟨38, _⟩ => ⟨S32768x896, .f32⟩
  | .hbm, ⟨39, _⟩ => ⟨S_, .f32⟩
  | .hbm, ⟨40, _⟩ => ⟨S32768x896, .f32⟩
  | .hbm, ⟨41, _⟩ => ⟨S32768x896, .f32⟩
  | .hbm, ⟨42, _⟩ => ⟨S_, .f32⟩
  | .hbm, ⟨43, _⟩ => ⟨S32768x896, .f32⟩
  | .hbm, ⟨44, _⟩ => ⟨S32768x896, .f32⟩
  | .hbm, ⟨45, _⟩ => ⟨S32768x896, .f32⟩
  | .hbm, ⟨46, _⟩ => ⟨S1x896, .f32⟩
  | .hbm, ⟨47, _⟩ => ⟨S32768x896, .f32⟩
  | .hbm, ⟨48, _⟩ => ⟨S32768x896, .f32⟩
  | .hbm, ⟨49, _⟩ => ⟨S32768x896, .f32⟩
  | .hbm, ⟨50, _⟩ => ⟨S32768x896, .f32⟩
  | .hbm, ⟨51, _⟩ => ⟨S_, .f32⟩
  | .hbm, ⟨52, _⟩ => ⟨S32768x896, .f32⟩
  | .hbm, ⟨53, _⟩ => ⟨S32768x896, .f32⟩
  | .hbm, ⟨54, _⟩ => ⟨S_, .f32⟩
  | .hbm, ⟨55, _⟩ => ⟨S32768x896, .f32⟩
  | .hbm, ⟨56, _⟩ => ⟨S32768x896, .f32⟩
  | .hbm, ⟨57, _⟩ => ⟨S32768x896, .f32⟩
  | .hbm, ⟨58, _⟩ => ⟨S32768x896, .f32⟩
  | .hbm, ⟨59, _⟩ => ⟨S1x896, .f32⟩
  | .hbm, ⟨60, _⟩ => ⟨S32768x896, .f32⟩
  | .hbm, ⟨61, _⟩ => ⟨S32768x896, .f32⟩
  | .hbm, ⟨62, _⟩ => ⟨S32768x896, .f32⟩
  | .hbm, ⟨63, _⟩ => ⟨S32768x896, .f32⟩
  | .hbm, ⟨64, _⟩ => ⟨S_, .f32⟩
  | .hbm, ⟨65, _⟩ => ⟨S32768x896, .f32⟩
  | .hbm, ⟨66, _⟩ => ⟨S32768x896, .f32⟩
  | .hbm, ⟨67, _⟩ => ⟨S32768x896, .f32⟩
  | .hbm, ⟨68, _⟩ => ⟨S32768x896, .f32⟩
  | .hbm, ⟨69, _⟩ => ⟨S32768x448, .f32⟩
  | .hbm, ⟨70, _⟩ => ⟨S32768x448, .f32⟩
  | .hbm, ⟨71, _⟩ => ⟨S32768x448, .f32⟩
  | .hbm, ⟨72, _⟩ => ⟨S1x448, .f32⟩
  | .hbm, ⟨73, _⟩ => ⟨S32768x448, .f32⟩
  | .hbm, ⟨74, _⟩ => ⟨S32768x448, .f32⟩
  | .hbm, ⟨75, _⟩ => ⟨S_, .f32⟩
  | .hbm, ⟨76, _⟩ => ⟨S32768x448, .f32⟩
  | .hbm, ⟨77, _⟩ => ⟨S32768x448, .f32⟩
  | .hbm, ⟨78, _⟩ => ⟨S32768x256, .f32⟩
  | .hbm, ⟨79, _⟩ => ⟨S1x256, .f32⟩
  | .hbm, ⟨80, _⟩ => ⟨S32768x256, .f32⟩
  | .hbm, ⟨81, _⟩ => ⟨S32768x256, .f32⟩
  | .hbm, ⟨82, _⟩ => ⟨S32768x448, .f32⟩
  | .hbm, ⟨83, _⟩ => ⟨S1x448, .f32⟩
  | .hbm, ⟨84, _⟩ => ⟨S32768x448, .f32⟩
  | .hbm, ⟨85, _⟩ => ⟨S32768x448, .f32⟩
  | .hbm, ⟨86, _⟩ => ⟨S_, .f32⟩
  | .hbm, ⟨87, _⟩ => ⟨S32768x448, .f32⟩
  | .hbm, ⟨88, _⟩ => ⟨S32768x448, .f32⟩
  | .hbm, ⟨89, _⟩ => ⟨S32768x256, .f32⟩
  | .hbm, ⟨90, _⟩ => ⟨S1x256, .f32⟩
  | .hbm, ⟨91, _⟩ => ⟨S32768x256, .f32⟩
  | .hbm, ⟨92, _⟩ => ⟨S32768x256, .f32⟩
  | _, _ => ⟨S32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_1 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_3 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_cst : Ref sig .tc := ⟨.hbm, 75, rfl⟩
abbrev main_call0_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]

class Facts₀ : Prop where
  slices_S32768x2688_S32768x896_0_0 : S32768x2688.Slices ![0, 0] S32768x896
  slices_S32768x2688_S32768x896_0_896 : S32768x2688.Slices ![0, 896] S32768x896
  slices_S32768x2688_S32768x896_0_1792 : S32768x2688.Slices ![0, 1792] S32768x896
  slices_S32768x1344_S32768x448_0_0 : S32768x1344.Slices ![0, 0] S32768x448
  slices_S32768x1344_S32768x448_0_448 : S32768x1344.Slices ![0, 448] S32768x448
  slices_S32768x1344_S32768x448_0_896 : S32768x1344.Slices ![0, 896] S32768x448
  concatenates_S32768x2_S32768x1_S32768x3_d1 : Shape.Concatenates [S32768x2, S32768x1] S32768x3 1
  concatenates_S32768x448_S32768x448_S32768x896_d1 : Shape.Concatenates [S32768x448, S32768x448] S32768x896 1
  bcast_S896_S1x896_1 : S896.BroadcastsInDim S1x896 (![1] : Fin 1 → Fin S1x896.rank)
  bcast_S1x896_S32768x896_0_1 : S1x896.BroadcastsInDim S32768x896 (![0, 1] : Fin 2 → Fin S32768x896.rank)
  bcast_S_S32768x896 : S_.BroadcastsInDim S32768x896 (![] : Fin 0 → Fin S32768x896.rank)
  slices_S32768x896_S32768x448_0_0 : S32768x896.Slices ![0, 0] S32768x448
  slices_S32768x896_S32768x448_0_448 : S32768x896.Slices ![0, 448] S32768x448
  bcast_S448_S1x448_1 : S448.BroadcastsInDim S1x448 (![1] : Fin 1 → Fin S1x448.rank)
  bcast_S1x448_S32768x448_0_1 : S1x448.BroadcastsInDim S32768x448 (![0, 1] : Fin 2 → Fin S32768x448.rank)
  bcast_S_S32768x448 : S_.BroadcastsInDim S32768x448 (![] : Fin 0 → Fin S32768x448.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  dot_S32768x896_S896x2688_S32768x2688_1_0_0_1_n_n_wf : DotDims.WF S32768x896 S896x2688 S32768x2688 [1] [0] [0] [1] [] []
  dot_S32768x2_S2x1344_S32768x1344_1_0_0_1_n_n_wf : DotDims.WF S32768x2 S2x1344 S32768x1344 [1] [0] [0] [1] [] []
  dot_S32768x3_S3x1344_S32768x1344_1_0_0_1_n_n_wf : DotDims.WF S32768x3 S3x1344 S32768x1344 [1] [0] [0] [1] [] []
  dot_S32768x448_S448x448_S32768x448_1_0_0_1_n_n_wf : DotDims.WF S32768x448 S448x448 S32768x448 [1] [0] [0] [1] [] []
  dot_S32768x448_S448x256_S32768x256_1_0_0_1_n_n_wf : DotDims.WF S32768x448 S448x256 S32768x256 [1] [0] [0] [1] [] []

variable [Facts₀]

def dot_S32768x896_S896x2688_S32768x2688_1_0_0_1_n_n : DotDims S32768x896 S896x2688 S32768x2688 where
  lhsContracting := [1]
  rhsContracting := [0]
  lhsNonContracting := [0]
  rhsNonContracting := [1]
  lhsBatch := []
  rhsBatch := []
  wf := dot_S32768x896_S896x2688_S32768x2688_1_0_0_1_n_n_wf
def dot_S32768x2_S2x1344_S32768x1344_1_0_0_1_n_n : DotDims S32768x2 S2x1344 S32768x1344 where
  lhsContracting := [1]
  rhsContracting := [0]
  lhsNonContracting := [0]
  rhsNonContracting := [1]
  lhsBatch := []
  rhsBatch := []
  wf := dot_S32768x2_S2x1344_S32768x1344_1_0_0_1_n_n_wf
def dot_S32768x3_S3x1344_S32768x1344_1_0_0_1_n_n : DotDims S32768x3 S3x1344 S32768x1344 where
  lhsContracting := [1]
  rhsContracting := [0]
  lhsNonContracting := [0]
  rhsNonContracting := [1]
  lhsBatch := []
  rhsBatch := []
  wf := dot_S32768x3_S3x1344_S32768x1344_1_0_0_1_n_n_wf
def dot_S32768x448_S448x448_S32768x448_1_0_0_1_n_n : DotDims S32768x448 S448x448 S32768x448 where
  lhsContracting := [1]
  rhsContracting := [0]
  lhsNonContracting := [0]
  rhsNonContracting := [1]
  lhsBatch := []
  rhsBatch := []
  wf := dot_S32768x448_S448x448_S32768x448_1_0_0_1_n_n_wf
def dot_S32768x448_S448x256_S32768x256_1_0_0_1_n_n : DotDims S32768x448 S448x256 S32768x256 where
  lhsContracting := [1]
  rhsContracting := [0]
  lhsNonContracting := [0]
  rhsNonContracting := [1]
  lhsBatch := []
  rhsBatch := []
  wf := dot_S32768x448_S448x256_S32768x256_1_0_0_1_n_n_wf

class Facts : Prop extends Facts₀ where

variable [Facts]
-- ==== Proof.Spec.lean ====
/-
  One step of a gated recurrent cell with two small dense heads, written for ONE batch row over the extended reals.

  A row carries y ∈ ℝ², the previous state h ∈ ℝ⁸⁹⁶ and a scalar cc. The state has a coarse half (columns 0 … 447)
  and a fine half (columns 448 … 895). Three projections feed three gates u, r, e:
    the recurrent one            rec c  = ∑ κ, h κ · WR κ c                       (c < 2688 = 3 · 896),
    the coarse input one         inC c  = ∑ κ < 2, y κ · WIc κ c                   (c < 1344 = 3 · 448),
    the fine input one           inF c  = ∑ κ < 2, y κ · WIf κ c  +  cc · WIf 2 c   (c < 1344),
  the last being the product of the row (y₀, y₁, cc) with a 3 × 1344 matrix, its third term written apart.
  In the half at offset o ∈ {0, 448} with input projection inp (inC for the coarse half, inF for the fine one), at
  column j < 448:
    u = σ (rec (o + j) + inp j + bu (o + j)),
    r = σ (rec (896 + o + j) + inp (448 + j) + br (o + j)),
    e = tanh (r · rec (1792 + o + j) + inp (896 + j) + be (o + j)),
    new state = u · h (o + j) + (1 − u) · e.
  Each head maps its half s ∈ ℝ⁴⁴⁸ of the new state to  max (s · W + b, 0) · W' + b'  ∈ ℝ²⁵⁶.

  The constants 1 and 0 are kept as the binary words both programs print, so that neither is ever evaluated.
-/
import Idealize.ShloMosaic.Lib.ValueIdx
import Idealize.ShloMosaic.PureOps.Ideal.Laws

noncomputable section

open scoped BigOperators

namespace Cert.GruCell

open Idealize.ShloMosaic Idealize.ShloMosaic.ValueIdx

/-- The word both programs print for 1.0. -/
abbrev one : EReal := Ideal.ofBits .f32 0x3F800000#32
/-- The word both programs print for 0.0. -/
abbrev zero : EReal := Ideal.ofBits .f32 0x00000000#32

/-! ## A matrix, a row of a matrix, a vector -/

/-- A rank-2 array as a function of its two coordinates. -/
abbrev mat {a b : ℕ} (x : (⟨2, ![a, b]⟩ : Shape).Idx → EReal) : Fin a → Fin b → EReal := fun p q => x (ix2 p q)
/-- Row p of a rank-2 array. -/
abbrev rowOf {a b : ℕ} (x : (⟨2, ![a, b]⟩ : Shape).Idx → EReal) (p : Fin a) : Fin b → EReal := fun q => x (ix2 p q)
/-- A [1, n] row vector as a function of its column. -/
abbrev rowVec {n : ℕ} (x : (⟨2, ![1, n]⟩ : Shape).Idx → EReal) : Fin n → EReal := fun j => x (ix2 (0 : Fin 1) j)
/-- A rank-1 array as a function of its coordinate. -/
abbrev vec {a : ℕ} (x : (⟨1, ![a]⟩ : Shape).Idx → EReal) : Fin a → EReal := fun p => x (ix1 p)

/-! ## One row -/

section Row

variable (WR : Fin 896 → Fin 2688 → EReal) (WIc : Fin 2 → Fin 1344 → EReal) (WIf : Fin 3 → Fin 1344 → EReal)
  (bu br be : Fin 896 → EReal) (y : Fin 2 → EReal) (h : Fin 896 → EReal) (cc : EReal)

/-- The recurrent projection of the row. -/
def rec (c : Fin 2688) : EReal := ∑ κ : Fin 896, h κ * WR κ c
/-- The coarse input projection of the row. -/
def inC (c : Fin 1344) : EReal := ∑ κ : Fin 2, y κ * WIc κ c
/-- The fine input projection of the row, the scalar's term apart. -/
def inF (c : Fin 1344) : EReal := (∑ κ : Fin 2, y κ * WIf (Fin.castSucc κ) c) + cc * WIf (Fin.last 2) c

/-- The row (y₀, y₁, cc). -/
def yc : Fin 3 → EReal := fun κ => if hκ : κ.val < 2 then y ⟨κ.val, hκ⟩ else cc

/-- The fine input projection is the product of (y₀, y₁, cc) with the 3 × 1344 matrix: a sum of three terms is the sum
    of the first two plus the third. -/
theorem inF_eq_sum (c : Fin 1344) : ∑ κ : Fin 3, yc y cc κ * WIf κ c = inF WIf y cc c := by
  rw [Fin.sum_univ_castSucc]
  unfold inF yc
  simp

section Half

variable (o : ℕ) (ho : o + 448 ≤ 896) (inp : Fin 1344 → EReal)

/-- The update gate of the half at offset o. -/
def gateU (j : Fin 448) : EReal :=
  Ideal.logistic (rec WR h ⟨o + j.val, by omega⟩ + inp ⟨j.val, by omega⟩ + bu ⟨o + j.val, by omega⟩)
/-- The reset gate of the half at offset o. -/
def gateR (j : Fin 448) : EReal :=
  Ideal.logistic (rec WR h ⟨896 + o + j.val, by omega⟩ + inp ⟨448 + j.val, by omega⟩ + br ⟨o + j.val, by omega⟩)
/-- The candidate state of the half at offset o. -/
def cand (j : Fin 448) : EReal :=
  Ideal.tanh (gateR WR br h o ho inp j * rec WR h ⟨1792 + o + j.val, by omega⟩ + inp ⟨896 + j.val, by omega⟩
    + be ⟨o + j.val, by omega⟩)
/-- The new state of the half at offset o. -/
def half (j : Fin 448) : EReal :=
  gateU WR bu h o ho inp j * h ⟨o + j.val, by omega⟩ + (one - gateU WR bu h o ho inp j) * cand WR br be h o ho inp j

end Half

/-- The coarse half of the new state. -/
def coarse : Fin 448 → EReal := half WR bu br be h 0 (by decide) (inC WIc y)
/-- The fine half of the new state. -/
def fine : Fin 448 → EReal := half WR bu br be h 448 (by decide) (inF WIf y cc)

/-- The new state of the row, both halves side by side. -/
def state (J : Fin 896) : EReal :=
  if hJ : J.val < 448 then coarse WR WIc bu br be y h ⟨J.val, hJ⟩ else fine WR WIf bu br be y h cc ⟨J.val - 448, by omega⟩

end Row

/-- A dense head on a half s of the state: max (s · W + b, 0) · W' + b'. -/
def head (W : Fin 448 → Fin 448 → EReal) (b : Fin 448 → EReal) (W' : Fin 448 → Fin 256 → EReal) (b' : Fin 256 → EReal)
    (s : Fin 448 → EReal) (q : Fin 256) : EReal :=
  (∑ κ : Fin 448, max ((∑ κ' : Fin 448, s κ' * W κ' κ) + b κ) zero * W' κ q) + b' q

/-- The logistic function is 1 / (1 + e⁻ˣ), with the printed word for 1. -/
theorem logistic_expand (x : EReal) : Ideal.div one (one + Ideal.exp (-x)) = Ideal.logistic x := by
  have h1 : one = 1 := IdealRules.sign_bit.ideal_onePat .f32
  rw [h1]; rfl

/-! ## The whole arrays -/

/-- The seventeen argument arrays, as both programs receive them. -/
structure Args where
  y : (⟨2, ![32768, 2]⟩ : Shape).Idx → EReal
  h : (⟨2, ![32768, 896]⟩ : Shape).Idx → EReal
  cc : (⟨2, ![32768, 1]⟩ : Shape).Idx → EReal
  WR : (⟨2, ![896, 2688]⟩ : Shape).Idx → EReal
  WIc : (⟨2, ![2, 1344]⟩ : Shape).Idx → EReal
  WIf : (⟨2, ![3, 1344]⟩ : Shape).Idx → EReal
  bu : (⟨1, ![896]⟩ : Shape).Idx → EReal
  br : (⟨1, ![896]⟩ : Shape).Idx → EReal
  be : (⟨1, ![896]⟩ : Shape).Idx → EReal
  W1 : (⟨2, ![448, 448]⟩ : Shape).Idx → EReal
  b1 : (⟨1, ![448]⟩ : Shape).Idx → EReal
  W2 : (⟨2, ![448, 256]⟩ : Shape).Idx → EReal
  b2 : (⟨1, ![256]⟩ : Shape).Idx → EReal
  W3 : (⟨2, ![448, 448]⟩ : Shape).Idx → EReal
  b3 : (⟨1, ![448]⟩ : Shape).Idx → EReal
  W4 : (⟨2, ![448, 256]⟩ : Shape).Idx → EReal
  b4 : (⟨1, ![256]⟩ : Shape).Idx → EReal

variable (A : Args)

/-- The coarse half of row b's new state. -/
def coarseAt (b : Fin 32768) : Fin 448 → EReal :=
  coarse (mat A.WR) (mat A.WIc) (vec A.bu) (vec A.br) (vec A.be) (rowOf A.y b) (rowOf A.h b)
/-- The fine half of row b's new state. -/
def fineAt (b : Fin 32768) : Fin 448 → EReal :=
  fine (mat A.WR) (mat A.WIf) (vec A.bu) (vec A.br) (vec A.be) (rowOf A.y b) (rowOf A.h b) (A.cc (ix2 b 0))

/-- The new state array. -/
def newState : (⟨2, ![32768, 896]⟩ : Shape).Idx → EReal := fun i =>
  state (mat A.WR) (mat A.WIc) (mat A.WIf) (vec A.bu) (vec A.br) (vec A.be) (rowOf A.y ⟨(i 0).val, (i 0).isLt⟩)
    (rowOf A.h ⟨(i 0).val, (i 0).isLt⟩) (A.cc (ix2 ⟨(i 0).val, (i 0).isLt⟩ 0)) ⟨(i 1).val, (i 1).isLt⟩
/-- The coarse head's output array. -/
def outCoarse : (⟨2, ![32768, 256]⟩ : Shape).Idx → EReal := fun i =>
  head (mat A.W1) (vec A.b1) (mat A.W2) (vec A.b2) (coarseAt A ⟨(i 0).val, (i 0).isLt⟩) ⟨(i 1).val, (i 1).isLt⟩
/-- The fine head's output array. -/
def outFine : (⟨2, ![32768, 256]⟩ : Shape).Idx → EReal := fun i =>
  head (mat A.W3) (vec A.b3) (mat A.W4) (vec A.b4) (fineAt A ⟨(i 0).val, (i 0).isLt⟩) ⟨(i 1).val, (i 1).isLt⟩

end Cert.GruCell

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KernelGates.lean ====
/-
  The two halves of the new state, as one grid point's body computes them on its 512 rows.

  The body forms each gate of each half by its own products: the row block (in the narrower float format, the identity
  here) times a 448-column slice of the recurrent weights, the input block times a 448-column slice of the input
  weights, and for the fine half the scalar column times the third weight row; then bias, logistic or tanh, and the
  convex combination with the previous state's half. Entry (p, j) of each half is the cell's half for row p at column j.
-/
import proofs.«136781_j82463372083317_1_alg».proof.Proof.Gen.KernelIdeal.Frame
import proofs.«136781_j82463372083317_1_alg».proof.Proof.Spec
import proofs.«136781_j82463372083317_1_alg».proof.Proof.LibPlainDot
import Idealize.ShloMosaic.Lib.Pipeline.Value
import Idealize.ShloMosaic.Lib.ValueIdx
import Idealize.ShloMosaic.Lib.ValueLayout

noncomputable section

namespace Cert.KernelIdeal.Gates

open Cert.KernelIdeal Cert.KernelIdeal.Gen Idealize.ShloMosaic Idealize.ShloMosaic.TcCoe Idealize.ShloMosaic.ValueIdx Cert.GruCell

variable (x0 : Vec Ideal S512x2 .f32) (x1 : Vec Ideal S512x896 .f32) (x2 : Vec Ideal S512x1 .f32)
  (x3 : Vec Ideal S896x2688 .bf16) (x4 : Vec Ideal S2x1344 .bf16) (x5 : Vec Ideal S3x1344 .bf16)
  (x6 x7 x8 : Vec Ideal S1x896 .f32) (x9 : Vec Ideal S448x448 .bf16) (x10 : Vec Ideal S1x448 .f32)
  (x11 : Vec Ideal S448x256 .bf16) (x12 : Vec Ideal S1x256 .f32) (x13 : Vec Ideal S448x448 .bf16)
  (x14 : Vec Ideal S1x448 .f32) (x15 : Vec Ideal S448x256 .bf16) (x16 : Vec Ideal S1x256 .f32)

/-- The coarse half as the body computes it from the point's blocks. -/
abbrev payCoarse : FVec Ideal S512x448 .f32 :=
  k0_pay18 (View.ld x1 r0_0) (k0_pay2 (View.ld x1 r0_0)) (k0_pay3 (View.ld x0 r0_1)) (k0_pay8 (View.ld x8 r0_3)) (k0_pay14 (k0_pay4 (View.ld x6 r0_3)) (k0_pay10 (View.ld x1 r0_0) (View.ld x3 r0_5)) (k0_pay12 (View.ld x0 r0_1) (View.ld x4 r0_7))) (k0_pay16 (k0_pay2 (View.ld x1 r0_0)) (k0_pay3 (View.ld x0 r0_1)) (k0_pay6 (View.ld x7 r0_3)) (View.ld x3 r0_10) (View.ld x4 r0_12)) (View.ld x3 r0_15) (View.ld x4 r0_17)

/-- The fine half as the body computes it from the point's blocks. -/
abbrev payFine : FVec Ideal S512x448 .f32 :=
  k0_pay19 (View.ld x1 r0_0) (k0_pay2 (View.ld x1 r0_0)) (k0_pay3 (View.ld x0 r0_1)) (View.ld x2 r0_2) (k0_pay9 (View.ld x8 r0_4)) (k0_pay15 (k0_pay3 (View.ld x0 r0_1)) (View.ld x2 r0_2) (k0_pay5 (View.ld x6 r0_4)) (k0_pay11 (View.ld x1 r0_0) (View.ld x3 r0_6)) (k0_pay13 (View.ld x5 r0_8)) (View.ld x5 r0_9)) (k0_pay17 (k0_pay2 (View.ld x1 r0_0)) (k0_pay3 (View.ld x0 r0_1)) (View.ld x2 r0_2) (k0_pay7 (View.ld x7 r0_4)) (View.ld x3 r0_11) (View.ld x5 r0_13) (View.ld x5 r0_14)) (View.ld x3 r0_16) (View.ld x5 r0_18) (View.ld x5 r0_19)

/-! ## A load through a unit-stride rectangle, and a column broadcast -/

/-- A unit-stride rectangle of a matrix places its entry (p, q) at (o₀ + p, o₁ + q) of the matrix. -/
theorem ld_unit2 {α : Type} {A B a b : ℕ} (X : (⟨2, ![A, B]⟩ : Shape).Idx → α) (o0 o1 : ℕ)
    (inb : ∀ d, (![o0, o1] : Fin 2 → ℕ) d + (⟨2, ![a, b]⟩ : Shape).size d ≤ (⟨2, ![A, B]⟩ : Shape).size d)
    (p : Fin a) (q : Fin b) (P : Fin A) (Q : Fin B) (h0 : P.val = o0 + p.val) (h1 : Q.val = o1 + q.val) :
    X ((Rect.unit (s := ⟨2, ![A, B]⟩) ![o0, o1] (⟨2, ![a, b]⟩ : Shape).size inb).idx (ix2 p q)) = X (ix2 P Q) :=
  congrArg X (funext fun d => Fin.ext (by
    match d with
    | ⟨0, _⟩ => show o0 + 1 * p.val = P.val; omega
    | ⟨1, _⟩ => show o1 + 1 * q.val = Q.val; omega))

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The products, the bias rows and the state's slice at an entry -/

/-- The row block times the 448-column slice of the recurrent weights from column o: the recurrent projection at o + j. -/
theorem rec_entry (o : ℕ) (inb : ∀ d, (![0, o] : Fin 2 → ℕ) d + S896x448.size d ≤ S896x2688.size d)
    (p : Fin 512) (j : Fin 448) (c : Fin 2688) (hc : c.val = o + j.val) :
    k0_pay10 (View.ld x1 r0_0) (View.ld x3 (Rect.unit (s := S896x2688) ![0, o] S896x448.size inb)) (ix2 p j)
      = Cert.GruCell.rec (mat x3) (rowOf x1 p) c := by
  refine (Cert.PlainDot.matmul_zero_apply ⟨rfl, rfl, rfl, rfl, rfl, rfl⟩ rfl rfl none _ _ p j).trans ?_
  refine Finset.sum_congr rfl fun κ _ => ?_
  exact congrArg₂ (· * ·) (ld_unit2 x1 0 0 _ p κ p κ (Nat.zero_add _).symm (Nat.zero_add _).symm)
    ((congrFun (shapeCast_self (s := S896x448) _ _) (ix2 κ j)).trans (ld_unit2 x3 0 o inb κ j κ c (Nat.zero_add _).symm hc))

/-- The input block times the 448-column slice of the coarse input weights from column o: the coarse input projection
    at o + j. -/
theorem inC_entry (o : ℕ) (inb : ∀ d, (![0, o] : Fin 2 → ℕ) d + S2x448.size d ≤ S2x1344.size d)
    (p : Fin 512) (j : Fin 448) (c : Fin 1344) (hc : c.val = o + j.val) :
    k0_pay12 (View.ld x0 r0_1) (View.ld x4 (Rect.unit (s := S2x1344) ![0, o] S2x448.size inb)) (ix2 p j)
      = inC (mat x4) (rowOf x0 p) c := by
  refine (Cert.PlainDot.matmul_zero_apply ⟨rfl, rfl, rfl, rfl, rfl, rfl⟩ rfl rfl none _ _ p j).trans ?_
  refine Finset.sum_congr rfl fun κ _ => ?_
  exact congrArg₂ (· * ·) (ld_unit2 x0 0 0 _ p κ p κ (Nat.zero_add _).symm (Nat.zero_add _).symm)
    ((congrFun (shapeCast_self (s := S2x448) _ _) (ix2 κ j)).trans (ld_unit2 x4 0 o inb κ j κ c (Nat.zero_add _).symm hc))

/-- The same product with the first two rows of the fine input weights: the first two terms of the fine input
    projection at o + j. -/
theorem inF_sum_entry (o : ℕ) (inb : ∀ d, (![0, o] : Fin 2 → ℕ) d + S2x448.size d ≤ S3x1344.size d)
    (p : Fin 512) (j : Fin 448) (c : Fin 1344) (hc : c.val = o + j.val) :
    k0_pay12 (View.ld x0 r0_1) (View.ld x5 (Rect.unit (s := S3x1344) ![0, o] S2x448.size inb)) (ix2 p j)
      = ∑ κ : Fin 2, rowOf x0 p κ * mat x5 (Fin.castSucc κ) c := by
  refine (Cert.PlainDot.matmul_zero_apply ⟨rfl, rfl, rfl, rfl, rfl, rfl⟩ rfl rfl none _ _ p j).trans ?_
  refine Finset.sum_congr rfl fun κ _ => ?_
  exact congrArg₂ (· * ·) (ld_unit2 x0 0 0 _ p κ p κ (Nat.zero_add _).symm (Nat.zero_add _).symm)
    ((congrFun (shapeCast_self (s := S2x448) _ _) (ix2 κ j)).trans
      (ld_unit2 x5 0 o inb κ j (Fin.castSucc κ) c (Nat.zero_add _).symm hc))

/-- The scalar column, broadcast along the row, times the slice of the third row of the fine input weights from
    column o, broadcast down the rows. -/
abbrev scalarTerm (v4 : Vec Ideal S512x1 .f32) (v28 : Vec Ideal S1x448 .bf16) : FVec Ideal S512x448 .f32 :=
  mulf (broadcastTo S512x448 v4 broadcasts_S512x1_S512x448)
    (broadcastTo S512x448
      (extf .f32 (shapeCast S1x448 v28 shapeCasts_S1x448_S1x448 : FVec Ideal S1x448 .bf16) bitsLt_bf16_f32 : FVec Ideal S1x448 .f32)
      broadcasts_S1x448_S512x448)

/-- It is the third term of the fine input projection at o + j. -/
theorem inF_scalar_entry (o : ℕ) (inb : ∀ d, (![2, o] : Fin 2 → ℕ) d + S1x448.size d ≤ S3x1344.size d)
    (p : Fin 512) (j : Fin 448) (c : Fin 1344) (hc : c.val = o + j.val) :
    scalarTerm (View.ld x2 r0_2) (View.ld x5 (Rect.unit (s := S3x1344) ![2, o] S1x448.size inb)) (ix2 p j)
      = x2 (ix2 p 0) * mat x5 (Fin.last 2) c := by
  refine congrArg₂ (· * ·) ?_ ?_
  · exact (broadcastTo_a1_ab_apply _ _ p j).trans
      (ld_unit2 x2 0 0 _ p (0 : Fin 1) p (0 : Fin 1) (Nat.zero_add _).symm rfl)
  · refine (broadcastTo_1b_ab_apply _ _ p j).trans ?_
    exact (congrFun (shapeCast_self (s := S1x448) (View.ld x5 (Rect.unit (s := S3x1344) ![2, o] S1x448.size inb))
        shapeCasts_S1x448_S1x448) (ix2 (0 : Fin 1) j)).trans
      (ld_unit2 x5 2 o inb (0 : Fin 1) j (Fin.last 2) c rfl hc)

/-- The fine input projection at o + j: the two-term product plus the scalar's term. -/
theorem inF_entry (o : ℕ) (inb2 : ∀ d, (![0, o] : Fin 2 → ℕ) d + S2x448.size d ≤ S3x1344.size d)
    (inb1 : ∀ d, (![2, o] : Fin 2 → ℕ) d + S1x448.size d ≤ S3x1344.size d)
    (p : Fin 512) (j : Fin 448) (c : Fin 1344) (hc : c.val = o + j.val) :
    k0_pay12 (View.ld x0 r0_1) (View.ld x5 (Rect.unit (s := S3x1344) ![0, o] S2x448.size inb2)) (ix2 p j)
        + scalarTerm (View.ld x2 r0_2) (View.ld x5 (Rect.unit (s := S3x1344) ![2, o] S1x448.size inb1)) (ix2 p j)
      = inF (mat x5) (rowOf x0 p) (x2 (ix2 p 0)) c :=
  congrArg₂ (· + ·) (inF_sum_entry x0 x5 o inb2 p j c hc) (inF_scalar_entry x2 x5 o inb1 p j c hc)

/-- A 448-column slice of a bias row from column o, broadcast down the rows: the bias at o + j. -/
theorem bias_entry (x : Vec Ideal S1x896 .f32) (o : ℕ) (inb : ∀ d, (![0, o] : Fin 2 → ℕ) d + S1x448.size d ≤ S1x896.size d)
    (p : Fin 512) (j : Fin 448) (c : Fin 896) (hc : c.val = o + j.val) :
    broadcastTo S512x448 (k0_pay4 (View.ld x (Rect.unit (s := S1x896) ![0, o] S1x448.size inb))) broadcasts_S1x448_S512x448 (ix2 p j)
      = rowVec x c := by
  refine (broadcastTo_1b_ab_apply _ _ p j).trans ?_
  exact (congrFun (shapeCast_self (s := S1x448) (View.ld x (Rect.unit (s := S1x896) ![0, o] S1x448.size inb))
      shapeCasts_S1x448_S1x448) (ix2 (0 : Fin 1) j)).trans
    (ld_unit2 x 0 o inb (0 : Fin 1) j (0 : Fin 1) c rfl hc)

/-- The 448-column slice of the previous state's block from column o: the row's previous state at o + j. -/
theorem prev_entry (o : ℕ) (hs : S512x896.Slices ![0, o] S512x448) (p : Fin 512) (j : Fin 448) (c : Fin 896)
    (hc : c.val = o + j.val) :
    extractStridedSlice (s := S512x896) S512x448 ![0, o] (View.ld x1 r0_0) hs (ix2 p j) = rowOf x1 p c :=
  (slice2_axis1_apply o _ hs p j c hc).trans
    (ld_unit2 x1 0 0 _ p c p c (Nat.zero_add _).symm (Nat.zero_add _).symm)

/-! ## The gates and the two halves -/

/-- The coarse half's update gate. -/
theorem gateU_coarse (p : Fin 512) (j : Fin 448) :
    k0_pay14 (k0_pay4 (View.ld x6 r0_3)) (k0_pay10 (View.ld x1 r0_0) (View.ld x3 r0_5))
        (k0_pay12 (View.ld x0 r0_1) (View.ld x4 r0_7)) (ix2 p j)
      = gateU (mat x3) (rowVec x6) (rowOf x1 p) 0 (by decide) (inC (mat x4) (rowOf x0 p)) j :=
  congrArg Ideal.logistic (congrArg₂ (· + ·) (congrArg₂ (· + ·)
    (rec_entry x1 x3 0 _ p j _ rfl) (inC_entry x0 x4 0 _ p j _ (Nat.zero_add _).symm)) (bias_entry x6 0 _ p j _ rfl))

/-- The coarse half's reset gate. -/
theorem gateR_coarse (p : Fin 512) (j : Fin 448) :
    k0_pay16 (k0_pay2 (View.ld x1 r0_0)) (k0_pay3 (View.ld x0 r0_1)) (k0_pay6 (View.ld x7 r0_3)) (View.ld x3 r0_10)
        (View.ld x4 r0_12) (ix2 p j)
      = gateR (mat x3) (rowVec x7) (rowOf x1 p) 0 (by decide) (inC (mat x4) (rowOf x0 p)) j :=
  congrArg Ideal.logistic (congrArg₂ (· + ·) (congrArg₂ (· + ·)
    (rec_entry x1 x3 896 _ p j _ rfl) (inC_entry x0 x4 448 _ p j _ rfl)) (bias_entry x7 0 _ p j _ rfl))

/-- The fine half's update gate. -/
theorem gateU_fine (p : Fin 512) (j : Fin 448) :
    k0_pay15 (k0_pay3 (View.ld x0 r0_1)) (View.ld x2 r0_2) (k0_pay5 (View.ld x6 r0_4))
        (k0_pay11 (View.ld x1 r0_0) (View.ld x3 r0_6)) (k0_pay13 (View.ld x5 r0_8)) (View.ld x5 r0_9) (ix2 p j)
      = gateU (mat x3) (rowVec x6) (rowOf x1 p) 448 (by decide) (inF (mat x5) (rowOf x0 p) (x2 (ix2 p 0))) j :=
  congrArg Ideal.logistic (congrArg₂ (· + ·) (congrArg₂ (· + ·)
    (rec_entry x1 x3 448 _ p j _ rfl) (inF_entry x0 x2 x5 0 _ _ p j _ (Nat.zero_add _).symm)) (bias_entry x6 448 _ p j _ rfl))

/-- The fine half's reset gate. -/
theorem gateR_fine (p : Fin 512) (j : Fin 448) :
    k0_pay17 (k0_pay2 (View.ld x1 r0_0)) (k0_pay3 (View.ld x0 r0_1)) (View.ld x2 r0_2) (k0_pay7 (View.ld x7 r0_4))
        (View.ld x3 r0_11) (View.ld x5 r0_13) (View.ld x5 r0_14) (ix2 p j)
      = gateR (mat x3) (rowVec x7) (rowOf x1 p) 448 (by decide) (inF (mat x5) (rowOf x0 p) (x2 (ix2 p 0))) j :=
  congrArg Ideal.logistic (congrArg₂ (· + ·) (congrArg₂ (· + ·)
    (rec_entry x1 x3 1344 _ p j _ rfl) (inF_entry x0 x2 x5 448 _ _ p j _ rfl)) (bias_entry x7 448 _ p j _ rfl))

/-- Entry (p, j) of the coarse half is the cell's coarse half for row p at column j. -/
theorem coarse_pay (p : Fin 512) (j : Fin 448) :
    payCoarse x0 x1 x3 x4 x6 x7 x8 (ix2 p j)
      = coarse (mat x3) (mat x4) (rowVec x6) (rowVec x7) (rowVec x8) (rowOf x0 p) (rowOf x1 p) j :=
  have hU := gateU_coarse x0 x1 x3 x4 x6 p j
  have hR := gateR_coarse x0 x1 x3 x4 x7 p j
  congrArg₂ (· + ·) (congrArg₂ (· * ·) hU (prev_entry x1 0 _ p j _ rfl))
    (congrArg₂ (· * ·) (congrArg (one - ·) hU)
      (congrArg Ideal.tanh (congrArg₂ (· + ·) (congrArg₂ (· + ·)
        (congrArg₂ (· * ·) hR (rec_entry x1 x3 1792 _ p j _ rfl)) (inC_entry x0 x4 896 _ p j _ rfl))
        (bias_entry x8 0 _ p j _ rfl))))

/-- Entry (p, j) of the fine half is the cell's fine half for row p at column j. -/
theorem fine_pay (p : Fin 512) (j : Fin 448) :
    payFine x0 x1 x2 x3 x5 x6 x7 x8 (ix2 p j)
      = fine (mat x3) (mat x5) (rowVec x6) (rowVec x7) (rowVec x8) (rowOf x0 p) (rowOf x1 p) (x2 (ix2 p 0)) j :=
  have hU := gateU_fine x0 x1 x2 x3 x5 x6 p j
  have hR := gateR_fine x0 x1 x2 x3 x5 x7 p j
  congrArg₂ (· + ·) (congrArg₂ (· * ·) hU (prev_entry x1 448 _ p j _ rfl))
    (congrArg₂ (· * ·) (congrArg (one - ·) hU)
      (congrArg Ideal.tanh (congrArg₂ (· + ·) (congrArg₂ (· + ·)
        (congrArg₂ (· * ·) hR (rec_entry x1 x3 2240 _ p j _ rfl)) (inF_entry x0 x2 x5 896 _ _ p j _ rfl))
        (bias_entry x8 448 _ p j _ rfl))))

end Cert.KernelIdeal.Gates

end
-- ==== Proof.KernelHeads.lean ====
/-
  A dense head as one grid point's body computes it on its 512 rows, for ANY half s of the state: the half (in the
  narrower float format, the identity here) times the first weight matrix, plus the bias row, clamped below at zero,
  times the second weight matrix, plus the second bias row. Entry (p, q) is the head of row p of s at column q.
-/
import proofs.«136781_j82463372083317_1_alg».proof.Proof.Gen.KernelIdeal.Frame
import proofs.«136781_j82463372083317_1_alg».proof.Proof.Spec
import proofs.«136781_j82463372083317_1_alg».proof.Proof.LibPlainDot
import Idealize.ShloMosaic.Lib.Pipeline.Value
import Idealize.ShloMosaic.Lib.ValueIdx
import Idealize.ShloMosaic.Lib.ValueLayout

noncomputable section

namespace Cert.KernelIdeal.Heads

open Cert.KernelIdeal Cert.KernelIdeal.Gen Idealize.ShloMosaic Idealize.ShloMosaic.TcCoe Idealize.ShloMosaic.ValueIdx Cert.GruCell

/-- The offsets (0, 0), as the constant zero function. -/
theorem off00 : (![0, 0] : Fin 2 → Nat) = fun _ => 0 := funext fun a => by
  match a with
  | ⟨0, _⟩ => rfl
  | ⟨1, _⟩ => rfl

/-- A dense layer [512,448]·[448,448] plus its bias row, at an entry. -/
theorem layer1_apply (s : FVec Ideal S512x448 .f32) (W : FVec Ideal S448x448 .bf16) (b : FVec Ideal S1x448 .f32)
    (p : Fin 512) (κ : Fin 448) :
    addf (matmul dot_S512x448_S448x448_S512x448_1_0_0_1_n_n none (truncf .bf16 s bitsLt_bf16_f32)
        (shapeCast S448x448 W shapeCasts_S448x448_S448x448) (constant (F := Ideal) S512x448 .f32 0x00000000#32))
      (broadcastTo S512x448 (shapeCast S1x448 b shapeCasts_S1x448_S1x448) broadcasts_S1x448_S512x448) (ix2 p κ)
    = (∑ κ' : Fin 448, s (ix2 p κ') * W (ix2 κ' κ)) + b (ix2 (0 : Fin 1) κ) := by
  rw [addf_apply, shapeCast_self, shapeCast_self, broadcastTo_1b_ab_apply,
    Cert.PlainDot.matmul_zero_apply ⟨rfl, rfl, rfl, rfl, rfl, rfl⟩ rfl rfl]
  rfl

/-- The product [512,448]·[448,256] at an entry. -/
theorem layer2_apply (t : FVec Ideal S512x448 .f32) (W : FVec Ideal S448x256 .bf16) (p : Fin 512) (q : Fin 256) :
    matmul dot_S512x448_S448x256_S512x256_1_0_0_1_n_n none (truncf .bf16 t bitsLt_bf16_f32)
        (shapeCast S448x256 W shapeCasts_S448x256_S448x256) (constant (F := Ideal) S512x256 .f32 0x00000000#32) (ix2 p q)
    = ∑ κ : Fin 448, t (ix2 p κ) * W (ix2 κ q) := by
  rw [shapeCast_self, Cert.PlainDot.matmul_zero_apply ⟨rfl, rfl, rfl, rfl, rfl, rfl⟩ rfl rfl]
  rfl

/-- Adding the [1,256] bias row, at an entry. -/
theorem bias2_apply (t : FVec Ideal S512x256 .f32) (b : FVec Ideal S1x256 .f32) (p : Fin 512) (q : Fin 256) :
    addf t (broadcastTo S512x256 (shapeCast S1x256 b shapeCasts_S1x256_S1x256) broadcasts_S1x256_S512x256) (ix2 p q)
    = t (ix2 p q) + b (ix2 (0 : Fin 1) q) := by
  rw [addf_apply, shapeCast_self, broadcastTo_1b_ab_apply]

variable (x0 : Vec Ideal S512x2 .f32) (x1 : Vec Ideal S512x896 .f32) (x2 : Vec Ideal S512x1 .f32)
  (x3 : Vec Ideal S896x2688 .bf16) (x4 : Vec Ideal S2x1344 .bf16) (x5 : Vec Ideal S3x1344 .bf16)
  (x6 x7 x8 : Vec Ideal S1x896 .f32) (x9 : Vec Ideal S448x448 .bf16) (x10 : Vec Ideal S1x448 .f32)
  (x11 : Vec Ideal S448x256 .bf16) (x12 : Vec Ideal S1x256 .f32) (x13 : Vec Ideal S448x448 .bf16)
  (x14 : Vec Ideal S1x448 .f32) (x15 : Vec Ideal S448x256 .bf16) (x16 : Vec Ideal S1x256 .f32)

/-- The coarse head of a half s at (p, q). -/
theorem headC_pay (s : FVec Ideal S512x448 .f32) (p : Fin 512) (q : Fin 256) :
    k0_pay20 s (View.ld x9 r0_22) (View.ld x10 r0_23) (View.ld x11 r0_24) (View.ld x12 r0_25) (ix2 p q)
      = head (mat x9) (rowVec x10) (mat x11) (rowVec x12) (rowOf s p) q := by
  rw [View.ld_unit_zero off00, View.ld_unit_zero off00, View.ld_unit_zero off00, View.ld_unit_zero off00]
  unfold k0_pay20
  rw [bias2_apply, layer2_apply]
  unfold head
  congr 1
  refine Finset.sum_congr rfl fun κ _ => ?_
  rw [maximumf_apply, layer1_apply, broadcast_apply]
  rfl

/-- The fine head of a half s at (p, q). -/
theorem headF_pay (s : FVec Ideal S512x448 .f32) (p : Fin 512) (q : Fin 256) :
    k0_pay1 (k0_pay21 s (View.ld x13 r0_22) (View.ld x14 r0_23) (View.ld x15 r0_24)) (View.ld x16 r0_25) (ix2 p q)
      = head (mat x13) (rowVec x14) (mat x15) (rowVec x16) (rowOf s p) q := by
  rw [View.ld_unit_zero off00, View.ld_unit_zero off00, View.ld_unit_zero off00, View.ld_unit_zero off00]
  unfold k0_pay1 k0_pay21
  rw [bias2_apply, layer2_apply]
  unfold head
  congr 1
  refine Finset.sum_congr rfl fun κ _ => ?_
  rw [maximumf_apply, layer1_apply, broadcast_apply]
  rfl

end Cert.KernelIdeal.Heads

end
-- ==== Proof.KernelBlock.lean ====
/-
  What one grid point's body leaves in its three output blocks, entry by entry.

  A point works on 512 rows. Row p of its blocks is row p of the cell: the new state's block at (p, J) is the row's new
  state at column J, and each head's block at (p, q) is the head of the row's half of the new state at column q. The
  weight and bias operands are whole arrays, the same at every point.
-/
import proofs.«136781_j82463372083317_1_alg».proof.Proof.Gen.KernelIdeal.Frame
import proofs.«136781_j82463372083317_1_alg».proof.Proof.Spec
import proofs.«136781_j82463372083317_1_alg».proof.Proof.KernelGates
import proofs.«136781_j82463372083317_1_alg».proof.Proof.KernelHeads
import Idealize.ShloMosaic.Lib.Pipeline.Value
import Idealize.ShloMosaic.Lib.ValueIdx
import Idealize.ShloMosaic.Lib.ValueLayout

noncomputable section

namespace Cert.KernelIdeal.BlockValue

open Cert.KernelIdeal Cert.KernelIdeal.Gen Cert.KernelIdeal.Gates Cert.KernelIdeal.Heads Idealize.ShloMosaic Idealize.ShloMosaic.TcCoe Idealize.ShloMosaic.ValueIdx Cert.GruCell

variable (x0 : Vec Ideal S512x2 .f32) (x1 : Vec Ideal S512x896 .f32) (x2 : Vec Ideal S512x1 .f32)
  (x3 : Vec Ideal S896x2688 .bf16) (x4 : Vec Ideal S2x1344 .bf16) (x5 : Vec Ideal S3x1344 .bf16)
  (x6 x7 x8 : Vec Ideal S1x896 .f32) (x9 : Vec Ideal S448x448 .bf16) (x10 : Vec Ideal S1x448 .f32)
  (x11 : Vec Ideal S448x256 .bf16) (x12 : Vec Ideal S1x256 .f32) (x13 : Vec Ideal S448x448 .bf16)
  (x14 : Vec Ideal S1x448 .f32) (x15 : Vec Ideal S448x256 .bf16) (x16 : Vec Ideal S1x256 .f32)

/-- Below column 448 the row's new state is its coarse half. -/
theorem state_lo (WR : Fin 896 → Fin 2688 → EReal) (WIc : Fin 2 → Fin 1344 → EReal) (WIf : Fin 3 → Fin 1344 → EReal)
    (bu br be : Fin 896 → EReal) (y : Fin 2 → EReal) (h : Fin 896 → EReal) (cc : EReal) (J : Fin 896) (j : Fin 448)
    (hJ : J.val = j.val) : state WR WIc WIf bu br be y h cc J = coarse WR WIc bu br be y h j := by
  have hj := j.isLt
  unfold state
  rw [dif_pos (by omega)]
  congr 1
  exact Fin.ext hJ

/-- From column 448 on the row's new state is its fine half, 448 columns to the left. -/
theorem state_hi (WR : Fin 896 → Fin 2688 → EReal) (WIc : Fin 2 → Fin 1344 → EReal) (WIf : Fin 3 → Fin 1344 → EReal)
    (bu br be : Fin 896 → EReal) (y : Fin 2 → EReal) (h : Fin 896 → EReal) (cc : EReal) (J : Fin 896) (j : Fin 448)
    (hJ : J.val = 448 + j.val) : state WR WIc WIf bu br be y h cc J = fine WR WIf bu br be y h cc j := by
  unfold state
  rw [dif_neg (by omega)]
  congr 1
  exact Fin.ext (by show J.val - 448 = j.val; omega)

/-- Row p's new state at column J, from the point's blocks. -/
def rowState (p : Fin 512) (J : Fin 896) : EReal :=
  state (mat x3) (mat x4) (mat x5) (rowVec x6) (rowVec x7) (rowVec x8) (rowOf x0 p) (rowOf x1 p) (x2 (ix2 p 0)) J

/-- The fine half, stored in columns 448 … 895, is the row's new state there. -/
theorem piece_fine (x : S512x448.Idx) :
    payFine x0 x1 x2 x3 x5 x6 x7 x8 x = rowState x0 x1 x2 x3 x4 x5 x6 x7 x8 ((r0_21.emb x) 0) ((r0_21.emb x) 1) := by
  obtain ⟨p, j, rfl⟩ : ∃ (p : Fin 512) (j : Fin 448), x = ix2 p j := ⟨x 0, x 1, eq_ix2 x⟩
  have e0 : (r0_21.emb (ix2 p j)) 0 = p := Fin.ext (by show 0 + 1 * p.val = p.val; omega)
  have e1 : ((r0_21.emb (ix2 p j)) 1).val = 448 + j.val := by show 448 + 1 * j.val = 448 + j.val; omega
  rw [fine_pay, e0]
  unfold rowState
  rw [state_hi _ _ _ _ _ _ _ _ _ _ j e1]

/-- The coarse half, stored in columns 0 … 447, is the row's new state there. -/
theorem piece_coarse (x : S512x448.Idx) :
    payCoarse x0 x1 x3 x4 x6 x7 x8 x = rowState x0 x1 x2 x3 x4 x5 x6 x7 x8 ((r0_20.emb x) 0) ((r0_20.emb x) 1) := by
  obtain ⟨p, j, rfl⟩ : ∃ (p : Fin 512) (j : Fin 448), x = ix2 p j := ⟨x 0, x 1, eq_ix2 x⟩
  have e0 : (r0_20.emb (ix2 p j)) 0 = p := Fin.ext (by show 0 + 1 * p.val = p.val; omega)
  have e1 : ((r0_20.emb (ix2 p j)) 1).val = j.val := by show 0 + 1 * j.val = j.val; omega
  rw [coarse_pay, e0]
  unfold rowState
  rw [state_lo _ _ _ _ _ _ _ _ _ _ j e1]

/-- The new state's block at (p, J) is row p's new state at column J. -/
theorem state_block (p : Fin 512) (J : Fin 896) :
    out0_19 x0 x1 x2 x3 x4 x5 x6 x7 x8 x9 x10 x11 x12 x13 x14 x15 x16 (ix2 p J)
      = state (mat x3) (mat x4) (mat x5) (rowVec x6) (rowVec x7) (rowVec x8) (rowOf x0 p) (rowOf x1 p) (x2 (ix2 p 0)) J := by
  unfold out0_19
  refine View.canon_apply_of_pieces (Val := Elt Ideal) (fun y : S512x896.Idx => rowState x0 x1 x2 x3 x4 x5 x6 x7 x8 (y 0) (y 1))
    _ ?_ (ix2 p J) (cover0_19 _ _ _)
  intro pc hpc
  rcases List.mem_cons.mp hpc with rfl | hpc
  · exact fun x => piece_fine x0 x1 x2 x3 x4 x5 x6 x7 x8 x
  rcases List.mem_cons.mp hpc with rfl | hpc
  · exact fun x => piece_coarse x0 x1 x2 x3 x4 x5 x6 x7 x8 x
  nomatch hpc

/-- The coarse head's block at (p, q) is the head of row p's coarse half. -/
theorem coarse_block (p : Fin 512) (q : Fin 256) :
    out0_17 x0 x1 x2 x3 x4 x5 x6 x7 x8 x9 x10 x11 x12 x13 x14 x15 x16 (ix2 p q)
      = head (mat x9) (rowVec x10) (mat x11) (rowVec x12)
          (coarse (mat x3) (mat x4) (rowVec x6) (rowVec x7) (rowVec x8) (rowOf x0 p) (rowOf x1 p)) q := by
  unfold out0_17
  rw [View.canon_unit_zero off00]
  exact (headC_pay x9 x10 x11 x12 (payCoarse x0 x1 x3 x4 x6 x7 x8) p q).trans
    (congrArg (fun s => head (mat x9) (rowVec x10) (mat x11) (rowVec x12) s q)
      (funext fun j => coarse_pay x0 x1 x3 x4 x6 x7 x8 p j))

/-- The fine head's block at (p, q) is the head of row p's fine half. -/
theorem fine_block (p : Fin 512) (q : Fin 256) :
    out0_18 x0 x1 x2 x3 x4 x5 x6 x7 x8 x9 x10 x11 x12 x13 x14 x15 x16 (ix2 p q)
      = head (mat x13) (rowVec x14) (mat x15) (rowVec x16)
          (fine (mat x3) (mat x5) (rowVec x6) (rowVec x7) (rowVec x8) (rowOf x0 p) (rowOf x1 p) (x2 (ix2 p 0))) q := by
  unfold out0_18
  rw [View.canon_unit_zero off00]
  exact (headF_pay x13 x14 x15 x16 (payFine x0 x1 x2 x3 x5 x6 x7 x8) p q).trans
    (congrArg (fun s => head (mat x13) (rowVec x14) (mat x15) (rowVec x16) s q)
      (funext fun j => fine_pay x0 x1 x2 x3 x5 x6 x7 x8 p j))

end Cert.KernelIdeal.BlockValue

end
-- ==== Proof.KernelArray.lean ====
/-
  From blocks to arrays: the three result arrays of the batch-tiled run.

  The grid has 64 points; point t works on rows 512 t … 512 t + 511, all columns, of the three batch arrays and of the
  three results, and sees the weights and biases whole. The host prepares the weights by a change of float format (the
  identity on the extended reals) and the biases by a reshape [n] → [1, n]. So block t of each result is the restriction
  of the cell's whole-array function to its rows, and the 64 blocks cover each result array.
-/
import proofs.«136781_j82463372083317_1_alg».proof.Proof.Gen.KernelIdeal.Value
import proofs.«136781_j82463372083317_1_alg».proof.Proof.KernelBlock
import proofs.«136781_j82463372083317_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.GruCell
open Idealize.ShloMosaic.Pipeline (Dat)

variable (m : (ℓ : Loc nD τ sig) → Buf (Elt Ideal) ℓ) (ρ : Dev nD → PrngReg)

/-- The argument arrays as the program is launched on them. -/
def argsOf (c : Dev nD) : Args where
  y := m ((c.tc : Thread nD τ).loc main_arg0)
  h := m ((c.tc : Thread nD τ).loc main_arg1)
  cc := m ((c.tc : Thread nD τ).loc main_arg2)
  WR := m ((c.tc : Thread nD τ).loc main_arg3)
  WIc := m ((c.tc : Thread nD τ).loc main_arg4)
  WIf := m ((c.tc : Thread nD τ).loc main_arg5)
  bu := m ((c.tc : Thread nD τ).loc main_arg6)
  br := m ((c.tc : Thread nD τ).loc main_arg7)
  be := m ((c.tc : Thread nD τ).loc main_arg8)
  W1 := m ((c.tc : Thread nD τ).loc main_arg9)
  b1 := m ((c.tc : Thread nD τ).loc main_arg10)
  W2 := m ((c.tc : Thread nD τ).loc main_arg11)
  b2 := m ((c.tc : Thread nD τ).loc main_arg12)
  W3 := m ((c.tc : Thread nD τ).loc main_arg13)
  b3 := m ((c.tc : Thread nD τ).loc main_arg14)
  W4 := m ((c.tc : Thread nD τ).loc main_arg15)
  b4 := m ((c.tc : Thread nD τ).loc main_arg16)

/-! ## The windows' blocks in their arrays -/

/-- The printed index maps, decided over the 64 grid points: a batch window's block index at point t is (t, 0); a weight
    or bias window's is (0, 0) at every point. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = t.val ∧ win0_17.index t (1 : Fin 2) = 0)
    ∧ (win0_18.index t (0 : Fin 2) = t.val ∧ win0_18.index t (1 : Fin 2) = 0)
    ∧ (win0_19.index t (0 : Fin 2) = t.val ∧ win0_19.index t (1 : Fin 2) = 0) :=
  (by decide +kernel : ∀ t : Fin grid0.N, _)

/-- Row p of point t's block is row 512 t + p of the array. -/
def rowAt (t : Fin cfg0.N) (p : Fin 512) : Fin 32768 :=
  ⟨512 * t.val + p.val, by have ht : t.val < grid0.N := t.isLt; rw [N_0] at ht; have hp := p.isLt; omega⟩

/-- Entry (p, q) of window 0's block at point t is entry (512 t + p, q) of its array. -/
theorem emb0 (t : Fin cfg0.N) (p : Fin 512) (q : Fin 2) :
    ((cfg0.win 0).blk t).view.emb (ix2 p q) = ix2 (rowAt t p) q := by
  obtain ⟨e0, e1, e2, e3, e4, e5, e6, e7, e8, e9, e10, e11, e12, e13, e14, e15, e16, e17, e18, e19⟩ := idx_facts t
  funext a; apply Fin.ext
  match a with
  | ⟨0, _⟩ => show win0_0.index t (0 : Fin 2) * 512 + 1 * p.val = 512 * t.val + p.val; rw [e0.1]; omega
  | ⟨1, _⟩ => show win0_0.index t (1 : Fin 2) * 2 + 1 * q.val = q.val; rw [e0.2]; omega

/-- Entry (p, q) of window 1's block at point t is entry (512 t + p, q) of its array. -/
theorem emb1 (t : Fin cfg0.N) (p : Fin 512) (q : Fin 896) :
    ((cfg0.win 1).blk t).view.emb (ix2 p q) = ix2 (rowAt t p) q := by
  obtain ⟨e0, e1, e2, e3, e4, e5, e6, e7, e8, e9, e10, e11, e12, e13, e14, e15, e16, e17, e18, e19⟩ := idx_facts t
  funext a; apply Fin.ext
  match a with
  | ⟨0, _⟩ => show win0_1.index t (0 : Fin 2) * 512 + 1 * p.val = 512 * t.val + p.val; rw [e1.1]; omega
  | ⟨1, _⟩ => show win0_1.index t (1 : Fin 2) * 896 + 1 * q.val = q.val; rw [e1.2]; omega

/-- Entry (p, q) of window 2's block at point t is entry (512 t + p, q) of its array. -/
theorem emb2 (t : Fin cfg0.N) (p : Fin 512) (q : Fin 1) :
    ((cfg0.win 2).blk t).view.emb (ix2 p q) = ix2 (rowAt t p) q := by
  obtain ⟨e0, e1, e2, e3, e4, e5, e6, e7, e8, e9, e10, e11, e12, e13, e14, e15, e16, e17, e18, e19⟩ := idx_facts t
  funext a; apply Fin.ext
  match a with
  | ⟨0, _⟩ => show win0_2.index t (0 : Fin 2) * 512 + 1 * p.val = 512 * t.val + p.val; rw [e2.1]; omega
  | ⟨1, _⟩ => show win0_2.index t (1 : Fin 2) * 1 + 1 * q.val = q.val; rw [e2.2]; omega

/-- Entry (p, q) of window 17's block at point t is entry (512 t + p, q) of its array. -/
theorem emb17 (t : Fin cfg0.N) (p : Fin 512) (q : Fin 256) :
    ((cfg0.win 17).blk t).view.emb (ix2 p q) = ix2 (rowAt t p) q := by
  obtain ⟨e0, e1, e2, e3, e4, e5, e6, e7, e8, e9, e10, e11, e12, e13, e14, e15, e16, e17, e18, e19⟩ := idx_facts t
  funext a; apply Fin.ext
  match a with
  | ⟨0, _⟩ => show win0_17.index t (0 : Fin 2) * 512 + 1 * p.val = 512 * t.val + p.val; rw [e17.1]; omega
  | ⟨1, _⟩ => show win0_17.index t (1 : Fin 2) * 256 + 1 * q.val = q.val; rw [e17.2]; omega

/-- Entry (p, q) of window 18's block at point t is entry (512 t + p, q) of its array. -/
theorem emb18 (t : Fin cfg0.N) (p : Fin 512) (q : Fin 256) :
    ((cfg0.win 18).blk t).view.emb (ix2 p q) = ix2 (rowAt t p) q := by
  obtain ⟨e0, e1, e2, e3, e4, e5, e6, e7, e8, e9, e10, e11, e12, e13, e14, e15, e16, e17, e18, e19⟩ := idx_facts t
  funext a; apply Fin.ext
  match a with
  | ⟨0, _⟩ => show win0_18.index t (0 : Fin 2) * 512 + 1 * p.val = 512 * t.val + p.val; rw [e18.1]; omega
  | ⟨1, _⟩ => show win0_18.index t (1 : Fin 2) * 256 + 1 * q.val = q.val; rw [e18.2]; omega

/-- Entry (p, q) of window 19's block at point t is entry (512 t + p, q) of its array. -/
theorem emb19 (t : Fin cfg0.N) (p : Fin 512) (q : Fin 896) :
    ((cfg0.win 19).blk t).view.emb (ix2 p q) = ix2 (rowAt t p) q := by
  obtain ⟨e0, e1, e2, e3, e4, e5, e6, e7, e8, e9, e10, e11, e12, e13, e14, e15, e16, e17, e18, e19⟩ := idx_facts t
  funext a; apply Fin.ext
  match a with
  | ⟨0, _⟩ => show win0_19.index t (0 : Fin 2) * 512 + 1 * p.val = 512 * t.val + p.val; rw [e19.1]; omega
  | ⟨1, _⟩ => show win0_19.index t (1 : Fin 2) * 896 + 1 * q.val = q.val; rw [e19.2]; omega

/-- Window 3's block at every point is its whole array. -/
theorem emb3 (t : Fin cfg0.N) (p : Fin 896) (q : Fin 2688) :
    ((cfg0.win 3).blk t).view.emb (ix2 p q) = ix2 p q := by
  obtain ⟨e0, e1, e2, e3, e4, e5, e6, e7, e8, e9, e10, e11, e12, e13, e14, e15, e16, e17, e18, e19⟩ := idx_facts t
  funext a; apply Fin.ext
  match a with
  | ⟨0, _⟩ => show win0_3.index t (0 : Fin 2) * 896 + 1 * p.val = p.val; rw [e3.1]; omega
  | ⟨1, _⟩ => show win0_3.index t (1 : Fin 2) * 2688 + 1 * q.val = q.val; rw [e3.2]; omega

/-- Window 4's block at every point is its whole array. -/
theorem emb4 (t : Fin cfg0.N) (p : Fin 2) (q : Fin 1344) :
    ((cfg0.win 4).blk t).view.emb (ix2 p q) = ix2 p q := by
  obtain ⟨e0, e1, e2, e3, e4, e5, e6, e7, e8, e9, e10, e11, e12, e13, e14, e15, e16, e17, e18, e19⟩ := idx_facts t
  funext a; apply Fin.ext
  match a with
  | ⟨0, _⟩ => show win0_4.index t (0 : Fin 2) * 2 + 1 * p.val = p.val; rw [e4.1]; omega
  | ⟨1, _⟩ => show win0_4.index t (1 : Fin 2) * 1344 + 1 * q.val = q.val; rw [e4.2]; omega

/-- Window 5's block at every point is its whole array. -/
theorem emb5 (t : Fin cfg0.N) (p : Fin 3) (q : Fin 1344) :
    ((cfg0.win 5).blk t).view.emb (ix2 p q) = ix2 p q := by
  obtain ⟨e0, e1, e2, e3, e4, e5, e6, e7, e8, e9, e10, e11, e12, e13, e14, e15, e16, e17, e18, e19⟩ := idx_facts t
  funext a; apply Fin.ext
  match a with
  | ⟨0, _⟩ => show win0_5.index t (0 : Fin 2) * 3 + 1 * p.val = p.val; rw [e5.1]; omega
  | ⟨1, _⟩ => show win0_5.index t (1 : Fin 2) * 1344 + 1 * q.val = q.val; rw [e5.2]; omega

/-- Window 6's block at every point is its whole array. -/
theorem emb6 (t : Fin cfg0.N) (p : Fin 1) (q : Fin 896) :
    ((cfg0.win 6).blk t).view.emb (ix2 p q) = ix2 p q := by
  obtain ⟨e0, e1, e2, e3, e4, e5, e6, e7, e8, e9, e10, e11, e12, e13, e14, e15, e16, e17, e18, e19⟩ := idx_facts t
  funext a; apply Fin.ext
  match a with
  | ⟨0, _⟩ => show win0_6.index t (0 : Fin 2) * 1 + 1 * p.val = p.val; rw [e6.1]; omega
  | ⟨1, _⟩ => show win0_6.index t (1 : Fin 2) * 896 + 1 * q.val = q.val; rw [e6.2]; omega

/-- Window 7's block at every point is its whole array. -/
theorem emb7 (t : Fin cfg0.N) (p : Fin 1) (q : Fin 896) :
    ((cfg0.win 7).blk t).view.emb (ix2 p q) = ix2 p q := by
  obtain ⟨e0, e1, e2, e3, e4, e5, e6, e7, e8, e9, e10, e11, e12, e13, e14, e15, e16, e17, e18, e19⟩ := idx_facts t
  funext a; apply Fin.ext
  match a with
  | ⟨0, _⟩ => show win0_7.index t (0 : Fin 2) * 1 + 1 * p.val = p.val; rw [e7.1]; omega
  | ⟨1, _⟩ => show win0_7.index t (1 : Fin 2) * 896 + 1 * q.val = q.val; rw [e7.2]; omega

/-- Window 8's block at every point is its whole array. -/
theorem emb8 (t : Fin cfg0.N) (p : Fin 1) (q : Fin 896) :
    ((cfg0.win 8).blk t).view.emb (ix2 p q) = ix2 p q := by
  obtain ⟨e0, e1, e2, e3, e4, e5, e6, e7, e8, e9, e10, e11, e12, e13, e14, e15, e16, e17, e18, e19⟩ := idx_facts t
  funext a; apply Fin.ext
  match a with
  | ⟨0, _⟩ => show win0_8.index t (0 : Fin 2) * 1 + 1 * p.val = p.val; rw [e8.1]; omega
  | ⟨1, _⟩ => show win0_8.index t (1 : Fin 2) * 896 + 1 * q.val = q.val; rw [e8.2]; omega

/-- Window 9's block at every point is its whole array. -/
theorem emb9 (t : Fin cfg0.N) (p : Fin 448) (q : Fin 448) :
    ((cfg0.win 9).blk t).view.emb (ix2 p q) = ix2 p q := by
  obtain ⟨e0, e1, e2, e3, e4, e5, e6, e7, e8, e9, e10, e11, e12, e13, e14, e15, e16, e17, e18, e19⟩ := idx_facts t
  funext a; apply Fin.ext
  match a with
  | ⟨0, _⟩ => show win0_9.index t (0 : Fin 2) * 448 + 1 * p.val = p.val; rw [e9.1]; omega
  | ⟨1, _⟩ => show win0_9.index t (1 : Fin 2) * 448 + 1 * q.val = q.val; rw [e9.2]; omega

/-- Window 10's block at every point is its whole array. -/
theorem emb10 (t : Fin cfg0.N) (p : Fin 1) (q : Fin 448) :
    ((cfg0.win 10).blk t).view.emb (ix2 p q) = ix2 p q := by
  obtain ⟨e0, e1, e2, e3, e4, e5, e6, e7, e8, e9, e10, e11, e12, e13, e14, e15, e16, e17, e18, e19⟩ := idx_facts t
  funext a; apply Fin.ext
  match a with
  | ⟨0, _⟩ => show win0_10.index t (0 : Fin 2) * 1 + 1 * p.val = p.val; rw [e10.1]; omega
  | ⟨1, _⟩ => show win0_10.index t (1 : Fin 2) * 448 + 1 * q.val = q.val; rw [e10.2]; omega

/-- Window 11's block at every point is its whole array. -/
theorem emb11 (t : Fin cfg0.N) (p : Fin 448) (q : Fin 256) :
    ((cfg0.win 11).blk t).view.emb (ix2 p q) = ix2 p q := by
  obtain ⟨e0, e1, e2, e3, e4, e5, e6, e7, e8, e9, e10, e11, e12, e13, e14, e15, e16, e17, e18, e19⟩ := idx_facts t
  funext a; apply Fin.ext
  match a with
  | ⟨0, _⟩ => show win0_11.index t (0 : Fin 2) * 448 + 1 * p.val = p.val; rw [e11.1]; omega
  | ⟨1, _⟩ => show win0_11.index t (1 : Fin 2) * 256 + 1 * q.val = q.val; rw [e11.2]; omega

/-- Window 12's block at every point is its whole array. -/
theorem emb12 (t : Fin cfg0.N) (p : Fin 1) (q : Fin 256) :
    ((cfg0.win 12).blk t).view.emb (ix2 p q) = ix2 p q := by
  obtain ⟨e0, e1, e2, e3, e4, e5, e6, e7, e8, e9, e10, e11, e12, e13, e14, e15, e16, e17, e18, e19⟩ := idx_facts t
  funext a; apply Fin.ext
  match a with
  | ⟨0, _⟩ => show win0_12.index t (0 : Fin 2) * 1 + 1 * p.val = p.val; rw [e12.1]; omega
  | ⟨1, _⟩ => show win0_12.index t (1 : Fin 2) * 256 + 1 * q.val = q.val; rw [e12.2]; omega

/-- Window 13's block at every point is its whole array. -/
theorem emb13 (t : Fin cfg0.N) (p : Fin 448) (q : Fin 448) :
    ((cfg0.win 13).blk t).view.emb (ix2 p q) = ix2 p q := by
  obtain ⟨e0, e1, e2, e3, e4, e5, e6, e7, e8, e9, e10, e11, e12, e13, e14, e15, e16, e17, e18, e19⟩ := idx_facts t
  funext a; apply Fin.ext
  match a with
  | ⟨0, _⟩ => show win0_13.index t (0 : Fin 2) * 448 + 1 * p.val = p.val; rw [e13.1]; omega
  | ⟨1, _⟩ => show win0_13.index t (1 : Fin 2) * 448 + 1 * q.val = q.val; rw [e13.2]; omega

/-- Window 14's block at every point is its whole array. -/
theorem emb14 (t : Fin cfg0.N) (p : Fin 1) (q : Fin 448) :
    ((cfg0.win 14).blk t).view.emb (ix2 p q) = ix2 p q := by
  obtain ⟨e0, e1, e2, e3, e4, e5, e6, e7, e8, e9, e10, e11, e12, e13, e14, e15, e16, e17, e18, e19⟩ := idx_facts t
  funext a; apply Fin.ext
  match a with
  | ⟨0, _⟩ => show win0_14.index t (0 : Fin 2) * 1 + 1 * p.val = p.val; rw [e14.1]; omega
  | ⟨1, _⟩ => show win0_14.index t (1 : Fin 2) * 448 + 1 * q.val = q.val; rw [e14.2]; omega

/-- Window 15's block at every point is its whole array. -/
theorem emb15 (t : Fin cfg0.N) (p : Fin 448) (q : Fin 256) :
    ((cfg0.win 15).blk t).view.emb (ix2 p q) = ix2 p q := by
  obtain ⟨e0, e1, e2, e3, e4, e5, e6, e7, e8, e9, e10, e11, e12, e13, e14, e15, e16, e17, e18, e19⟩ := idx_facts t
  funext a; apply Fin.ext
  match a with
  | ⟨0, _⟩ => show win0_15.index t (0 : Fin 2) * 448 + 1 * p.val = p.val; rw [e15.1]; omega
  | ⟨1, _⟩ => show win0_15.index t (1 : Fin 2) * 256 + 1 * q.val = q.val; rw [e15.2]; omega

/-- Window 16's block at every point is its whole array. -/
theorem emb16 (t : Fin cfg0.N) (p : Fin 1) (q : Fin 256) :
    ((cfg0.win 16).blk t).view.emb (ix2 p q) = ix2 p q := by
  obtain ⟨e0, e1, e2, e3, e4, e5, e6, e7, e8, e9, e10, e11, e12, e13, e14, e15, e16, e17, e18, e19⟩ := idx_facts t
  funext a; apply Fin.ext
  match a with
  | ⟨0, _⟩ => show win0_16.index t (0 : Fin 2) * 1 + 1 * p.val = p.val; rw [e16.1]; omega
  | ⟨1, _⟩ => show win0_16.index t (1 : Fin 2) * 256 + 1 * q.val = q.val; rw [e16.2]; omega

/-! ## What the host leaves in the weight and bias arrays

A change of float format is the identity on the extended reals, so each converted weight array is its argument; a bias
reshaped [n] → [1, n], read at (0, j), is its argument at j. -/

/-- The converted recurrent weights are the argument. -/
theorem V_v0 (c : Dev nD) : (V m c main_v0 : S896x2688.Idx → EReal) = (argsOf m c).WR := by
  dsimp only [V, hostOps0]; after_results; rfl

/-- The converted coarse input weights are the argument. -/
theorem V_v1 (c : Dev nD) : (V m c main_v1 : S2x1344.Idx → EReal) = (argsOf m c).WIc := by
  dsimp only [V, hostOps0]; after_results; rfl

/-- The converted fine input weights are the argument. -/
theorem V_v2 (c : Dev nD) : (V m c main_v2 : S3x1344.Idx → EReal) = (argsOf m c).WIf := by
  dsimp only [V, hostOps0]; after_results; rfl

/-- The converted coarse head's first weights are the argument. -/
theorem V_v3 (c : Dev nD) : (V m c main_v3 : S448x448.Idx → EReal) = (argsOf m c).W1 := by
  dsimp only [V, hostOps0]; after_results; rfl

/-- The converted coarse head's second weights are the argument. -/
theorem V_v4 (c : Dev nD) : (V m c main_v4 : S448x256.Idx → EReal) = (argsOf m c).W2 := by
  dsimp only [V, hostOps0]; after_results; rfl

/-- The converted fine head's first weights are the argument. -/
theorem V_v5 (c : Dev nD) : (V m c main_v5 : S448x448.Idx → EReal) = (argsOf m c).W3 := by
  dsimp only [V, hostOps0]; after_results; rfl

/-- The converted fine head's second weights are the argument. -/
theorem V_v6 (c : Dev nD) : (V m c main_v6 : S448x256.Idx → EReal) = (argsOf m c).W4 := by
  dsimp only [V, hostOps0]; after_results; rfl

/-- The reshaped bias bu at (0, j) is the argument at j. -/
theorem V_v7 (c : Dev nD) (j : Fin 896) : (V m c main_v7 : S1x896.Idx → EReal) (ix2 0 j) = (argsOf m c).bu (ix1 j) := by
  have e : (V m c main_v7 : S1x896.Idx → EReal)
      = shapeCast S1x896 (m ((c.tc : Thread nD τ).loc main_arg6)) shapeCasts_S896_S1x896 := by
    dsimp only [V, hostOps0]; after_results; rfl
  rw [e]
  refine (shapeCast_addUnit_apply ![896] _ _ _).trans ?_
  exact congrArg _ (funext fun a => match a with | ⟨0, _⟩ => rfl)

/-- The reshaped bias br at (0, j) is the argument at j. -/
theorem V_v8 (c : Dev nD) (j : Fin 896) : (V m c main_v8 : S1x896.Idx → EReal) (ix2 0 j) = (argsOf m c).br (ix1 j) := by
  have e : (V m c main_v8 : S1x896.Idx → EReal)
      = shapeCast S1x896 (m ((c.tc : Thread nD τ).loc main_arg7)) shapeCasts_S896_S1x896 := by
    dsimp only [V, hostOps0]; after_results; rfl
  rw [e]
  refine (shapeCast_addUnit_apply ![896] _ _ _).trans ?_
  exact congrArg _ (funext fun a => match a with | ⟨0, _⟩ => rfl)

/-- The reshaped bias be at (0, j) is the argument at j. -/
theorem V_v9 (c : Dev nD) (j : Fin 896) : (V m c main_v9 : S1x896.Idx → EReal) (ix2 0 j) = (argsOf m c).be (ix1 j) := by
  have e : (V m c main_v9 : S1x896.Idx → EReal)
      = shapeCast S1x896 (m ((c.tc : Thread nD τ).loc main_arg8)) shapeCasts_S896_S1x896 := by
    dsimp only [V, hostOps0]; after_results; rfl
  rw [e]
  refine (shapeCast_addUnit_apply ![896] _ _ _).trans ?_
  exact congrArg _ (funext fun a => match a with | ⟨0, _⟩ => rfl)

/-- The reshaped bias b1 at (0, j) is the argument at j. -/
theorem V_v10 (c : Dev nD) (j : Fin 448) : (V m c main_v10 : S1x448.Idx → EReal) (ix2 0 j) = (argsOf m c).b1 (ix1 j) := by
  have e : (V m c main_v10 : S1x448.Idx → EReal)
      = shapeCast S1x448 (m ((c.tc : Thread nD τ).loc main_arg10)) shapeCasts_S448_S1x448 := by
    dsimp only [V, hostOps0]; after_results; rfl
  rw [e]
  refine (shapeCast_addUnit_apply ![448] _ _ _).trans ?_
  exact congrArg _ (funext fun a => match a with | ⟨0, _⟩ => rfl)

/-- The reshaped bias b2 at (0, j) is the argument at j. -/
theorem V_v11 (c : Dev nD) (j : Fin 256) : (V m c main_v11 : S1x256.Idx → EReal) (ix2 0 j) = (argsOf m c).b2 (ix1 j) := by
  have e : (V m c main_v11 : S1x256.Idx → EReal)
      = shapeCast S1x256 (m ((c.tc : Thread nD τ).loc main_arg12)) shapeCasts_S256_S1x256 := by
    dsimp only [V, hostOps0]; after_results; rfl
  rw [e]
  refine (shapeCast_addUnit_apply ![256] _ _ _).trans ?_
  exact congrArg _ (funext fun a => match a with | ⟨0, _⟩ => rfl)

/-- The reshaped bias b3 at (0, j) is the argument at j. -/
theorem V_v12 (c : Dev nD) (j : Fin 448) : (V m c main_v12 : S1x448.Idx → EReal) (ix2 0 j) = (argsOf m c).b3 (ix1 j) := by
  have e : (V m c main_v12 : S1x448.Idx → EReal)
      = shapeCast S1x448 (m ((c.tc : Thread nD τ).loc main_arg14)) shapeCasts_S448_S1x448 := by
    dsimp only [V, hostOps0]; after_results; rfl
  rw [e]
  refine (shapeCast_addUnit_apply ![448] _ _ _).trans ?_
  exact congrArg _ (funext fun a => match a with | ⟨0, _⟩ => rfl)

/-- The reshaped bias b4 at (0, j) is the argument at j. -/
theorem V_v13 (c : Dev nD) (j : Fin 256) : (V m c main_v13 : S1x256.Idx → EReal) (ix2 0 j) = (argsOf m c).b4 (ix1 j) := by
  have e : (V m c main_v13 : S1x256.Idx → EReal)
      = shapeCast S1x256 (m ((c.tc : Thread nD τ).loc main_arg16)) shapeCasts_S256_S1x256 := by
    dsimp only [V, hostOps0]; after_results; rfl
  rw [e]
  refine (shapeCast_addUnit_apply ![256] _ _ _).trans ?_
  exact congrArg _ (funext fun a => match a with | ⟨0, _⟩ => rfl)

/-! ## Each window's block at a point, read off the arguments -/

/-- Row p of window 0's block at point t is row 512 t + p of the argument. -/
theorem blk0 (c : Dev nD) (t : Fin cfg0.N) (p : Fin 512) :
    rowOf (a := 512) (b := 2) (iblk m c 0 t) p = rowOf (argsOf m c).y (rowAt t p) := by
  funext q
  show V m c main_arg0 (((cfg0.win 0).blk t).view.emb (ix2 p q)) = _
  rw [emb0]
  exact congrFun (V_main_arg0 m c) _

/-- Row p of window 1's block at point t is row 512 t + p of the argument. -/
theorem blk1 (c : Dev nD) (t : Fin cfg0.N) (p : Fin 512) :
    rowOf (a := 512) (b := 896) (iblk m c 1 t) p = rowOf (argsOf m c).h (rowAt t p) := by
  funext q
  show V m c main_arg1 (((cfg0.win 1).blk t).view.emb (ix2 p q)) = _
  rw [emb1]
  exact congrFun (V_main_arg1 m c) _

/-- Entry (p, 0) of window 2's block at point t is entry (512 t + p, 0) of the argument. -/
theorem blk2 (c : Dev nD) (t : Fin cfg0.N) (p : Fin 512) :
    (iblk m c 2 t : S512x1.Idx → EReal) (ix2 p 0) = (argsOf m c).cc (ix2 (rowAt t p) 0) := by
  show V m c main_arg2 (((cfg0.win 2).blk t).view.emb (ix2 p 0)) = _
  rw [emb2]
  exact congrFun (V_main_arg2 m c) _

/-- Window 3's block at every point is the argument WR. -/
theorem blk3 (c : Dev nD) (t : Fin cfg0.N) :
    mat (a := 896) (b := 2688) (iblk m c 3 t) = mat (argsOf m c).WR := by
  funext p q
  show V m c main_v0 (((cfg0.win 3).blk t).view.emb (ix2 p q)) = _
  rw [emb3]
  exact congrFun (V_v0 m c) _

/-- Window 4's block at every point is the argument WIc. -/
theorem blk4 (c : Dev nD) (t : Fin cfg0.N) :
    mat (a := 2) (b := 1344) (iblk m c 4 t) = mat (argsOf m c).WIc := by
  funext p q
  show V m c main_v1 (((cfg0.win 4).blk t).view.emb (ix2 p q)) = _
  rw [emb4]
  exact congrFun (V_v1 m c) _

/-- Window 5's block at every point is the argument WIf. -/
theorem blk5 (c : Dev nD) (t : Fin cfg0.N) :
    mat (a := 3) (b := 1344) (iblk m c 5 t) = mat (argsOf m c).WIf := by
  funext p q
  show V m c main_v2 (((cfg0.win 5).blk t).view.emb (ix2 p q)) = _
  rw [emb5]
  exact congrFun (V_v2 m c) _

/-- Window 6's block at every point is the bias bu as a row. -/
theorem blk6 (c : Dev nD) (t : Fin cfg0.N) :
    rowVec (n := 896) (iblk m c 6 t) = vec (argsOf m c).bu := by
  funext j
  show V m c main_v7 (((cfg0.win 6).blk t).view.emb (ix2 0 j)) = _
  rw [emb6]
  exact V_v7 m c j

/-- Window 7's block at every point is the bias br as a row. -/
theorem blk7 (c : Dev nD) (t : Fin cfg0.N) :
    rowVec (n := 896) (iblk m c 7 t) = vec (argsOf m c).br := by
  funext j
  show V m c main_v8 (((cfg0.win 7).blk t).view.emb (ix2 0 j)) = _
  rw [emb7]
  exact V_v8 m c j

/-- Window 8's block at every point is the bias be as a row. -/
theorem blk8 (c : Dev nD) (t : Fin cfg0.N) :
    rowVec (n := 896) (iblk m c 8 t) = vec (argsOf m c).be := by
  funext j
  show V m c main_v9 (((cfg0.win 8).blk t).view.emb (ix2 0 j)) = _
  rw [emb8]
  exact V_v9 m c j

/-- Window 9's block at every point is the argument W1. -/
theorem blk9 (c : Dev nD) (t : Fin cfg0.N) :
    mat (a := 448) (b := 448) (iblk m c 9 t) = mat (argsOf m c).W1 := by
  funext p q
  show V m c main_v3 (((cfg0.win 9).blk t).view.emb (ix2 p q)) = _
  rw [emb9]
  exact congrFun (V_v3 m c) _

/-- Window 10's block at every point is the bias b1 as a row. -/
theorem blk10 (c : Dev nD) (t : Fin cfg0.N) :
    rowVec (n := 448) (iblk m c 10 t) = vec (argsOf m c).b1 := by
  funext j
  show V m c main_v10 (((cfg0.win 10).blk t).view.emb (ix2 0 j)) = _
  rw [emb10]
  exact V_v10 m c j

/-- Window 11's block at every point is the argument W2. -/
theorem blk11 (c : Dev nD) (t : Fin cfg0.N) :
    mat (a := 448) (b := 256) (iblk m c 11 t) = mat (argsOf m c).W2 := by
  funext p q
  show V m c main_v4 (((cfg0.win 11).blk t).view.emb (ix2 p q)) = _
  rw [emb11]
  exact congrFun (V_v4 m c) _

/-- Window 12's block at every point is the bias b2 as a row. -/
theorem blk12 (c : Dev nD) (t : Fin cfg0.N) :
    rowVec (n := 256) (iblk m c 12 t) = vec (argsOf m c).b2 := by
  funext j
  show V m c main_v11 (((cfg0.win 12).blk t).view.emb (ix2 0 j)) = _
  rw [emb12]
  exact V_v11 m c j

/-- Window 13's block at every point is the argument W3. -/
theorem blk13 (c : Dev nD) (t : Fin cfg0.N) :
    mat (a := 448) (b := 448) (iblk m c 13 t) = mat (argsOf m c).W3 := by
  funext p q
  show V m c main_v5 (((cfg0.win 13).blk t).view.emb (ix2 p q)) = _
  rw [emb13]
  exact congrFun (V_v5 m c) _

/-- Window 14's block at every point is the bias b3 as a row. -/
theorem blk14 (c : Dev nD) (t : Fin cfg0.N) :
    rowVec (n := 448) (iblk m c 14 t) = vec (argsOf m c).b3 := by
  funext j
  show V m c main_v12 (((cfg0.win 14).blk t).view.emb (ix2 0 j)) = _
  rw [emb14]
  exact V_v12 m c j

/-- Window 15's block at every point is the argument W4. -/
theorem blk15 (c : Dev nD) (t : Fin cfg0.N) :
    mat (a := 448) (b := 256) (iblk m c 15 t) = mat (argsOf m c).W4 := by
  funext p q
  show V m c main_v6 (((cfg0.win 15).blk t).view.emb (ix2 p q)) = _
  rw [emb15]
  exact congrFun (V_v6 m c) _

/-- Window 16's block at every point is the bias b4 as a row. -/
theorem blk16 (c : Dev nD) (t : Fin cfg0.N) :
    rowVec (n := 256) (iblk m c 16 t) = vec (argsOf m c).b4 := by
  funext j
  show V m c main_v13 (((cfg0.win 16).blk t).view.emb (ix2 0 j)) = _
  rw [emb16]
  exact V_v13 m c j

/-! ## From blocks to arrays -/

/-- What point t writes back to the coarse head's array is block t of the cell's whole-array function: row p of the block is
    row 512 t + p of the cell, over the same weights and biases at every point. -/
theorem flushed17_eq (c : Dev nD) (t : Fin cfg0.N) :
    (dats m 0 c).flushed 17 t = ((cfg0.win 17).blk t).view.read (Elt Ideal) (outCoarse (argsOf m c)) := by
  rw [Cert.KernelIdeal.Value.flushed17]
  funext y
  obtain ⟨p, q, rfl⟩ : ∃ (p : Fin 512) (q : Fin 256), y = ix2 p q := ⟨y 0, y 1, eq_ix2 y⟩
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q)
    = outCoarse (argsOf m c) (((cfg0.win 17).blk t).view.emb (ix2 p q))
  rw [emb17]
  refine (Cert.KernelIdeal.BlockValue.coarse_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans ?_
  rw [blk9, blk10, blk11, blk12, blk3, blk4, blk6, blk7, blk8, blk0, blk1]
  rfl

/-- An index of the coarse head's array is in point t's block iff each coordinate is in the block's range on its axis. -/
theorem mem_blk17 (t : Fin cfg0.N) (i : S32768x256.Idx) :
    i ∈ ((cfg0.win 17).blk t).view.set ↔ ∀ a : Fin 2, win0_17.index t a * S512x256.size a ≤ (i a).val
      ∧ (i a).val < win0_17.index t a * S512x256.size a + S512x256.size a := by
  show i ∈ ((View.whole main_v14_0).slice (win0_17.rect t)).set ↔ _
  rw [View.set_slice_whole, Rect.mem_set_unit]
  exact Iff.rfl

/-- The 64 blocks cover the coarse head's array: row r lies in the block of point r / 512. -/
theorem cover17 (i : S32768x256.Idx) :
    ∃ t : Fin cfg0.N, (cfg0.win 17).flush t = true ∧ i ∈ ((cfg0.win 17).blk t).view.set := by
  have hi0 : (i 0).val < 32768 := (i 0).isLt
  have hi1 : (i 1).val < 256 := (i 1).isLt
  have hN : grid0.N = 64 := N_0
  have ht : (i 0).val / 512 < grid0.N := by omega
  obtain ⟨e0, e1, e2, e3, e4, e5, e6, e7, e8, e9, e10, e11, e12, e13, e14, e15, e16, e17, e18, e19⟩ := idx_facts ⟨(i 0).val / 512, ht⟩
  refine ⟨⟨(i 0).val / 512, ht⟩, flush0_17 _, ?_⟩
  rw [mem_blk17]
  intro a
  match a with
  | ⟨0, _⟩ =>
    show win0_17.index ⟨(i 0).val / 512, ht⟩ (0 : Fin 2) * 512 ≤ (i 0).val
      ∧ (i 0).val < win0_17.index ⟨(i 0).val / 512, ht⟩ (0 : Fin 2) * 512 + 512
    rw [e17.1]; show (i 0).val / 512 * 512 ≤ (i 0).val ∧ (i 0).val < (i 0).val / 512 * 512 + 512; omega
  | ⟨1, _⟩ =>
    show win0_17.index ⟨(i 0).val / 512, ht⟩ (1 : Fin 2) * 256 ≤ (i 1).val
      ∧ (i 1).val < win0_17.index ⟨(i 0).val / 512, ht⟩ (1 : Fin 2) * 256 + 256
    rw [e17.2]; omega

/-- What point t writes back to the fine head's array is block t of the cell's whole-array function: row p of the block is
    row 512 t + p of the cell, over the same weights and biases at every point. -/
theorem flushed18_eq (c : Dev nD) (t : Fin cfg0.N) :
    (dats m 0 c).flushed 18 t = ((cfg0.win 18).blk t).view.read (Elt Ideal) (outFine (argsOf m c)) := by
  rw [Cert.KernelIdeal.Value.flushed18]
  funext y
  obtain ⟨p, q, rfl⟩ : ∃ (p : Fin 512) (q : Fin 256), y = ix2 p q := ⟨y 0, y 1, eq_ix2 y⟩
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q)
    = outFine (argsOf m c) (((cfg0.win 18).blk t).view.emb (ix2 p q))
  rw [emb18]
  refine (Cert.KernelIdeal.BlockValue.fine_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans ?_
  rw [blk13, blk14, blk15, blk16, blk3, blk5, blk6, blk7, blk8, blk0, blk1, blk2]
  rfl

/-- An index of the fine head's array is in point t's block iff each coordinate is in the block's range on its axis. -/
theorem mem_blk18 (t : Fin cfg0.N) (i : S32768x256.Idx) :
    i ∈ ((cfg0.win 18).blk t).view.set ↔ ∀ a : Fin 2, win0_18.index t a * S512x256.size a ≤ (i a).val
      ∧ (i a).val < win0_18.index t a * S512x256.size a + S512x256.size a := by
  show i ∈ ((View.whole main_v14_1).slice (win0_18.rect t)).set ↔ _
  rw [View.set_slice_whole, Rect.mem_set_unit]
  exact Iff.rfl

/-- The 64 blocks cover the fine head's array: row r lies in the block of point r / 512. -/
theorem cover18 (i : S32768x256.Idx) :
    ∃ t : Fin cfg0.N, (cfg0.win 18).flush t = true ∧ i ∈ ((cfg0.win 18).blk t).view.set := by
  have hi0 : (i 0).val < 32768 := (i 0).isLt
  have hi1 : (i 1).val < 256 := (i 1).isLt
  have hN : grid0.N = 64 := N_0
  have ht : (i 0).val / 512 < grid0.N := by omega
  obtain ⟨e0, e1, e2, e3, e4, e5, e6, e7, e8, e9, e10, e11, e12, e13, e14, e15, e16, e17, e18, e19⟩ := idx_facts ⟨(i 0).val / 512, ht⟩
  refine ⟨⟨(i 0).val / 512, ht⟩, flush0_18 _, ?_⟩
  rw [mem_blk18]
  intro a
  match a with
  | ⟨0, _⟩ =>
    show win0_18.index ⟨(i 0).val / 512, ht⟩ (0 : Fin 2) * 512 ≤ (i 0).val
      ∧ (i 0).val < win0_18.index ⟨(i 0).val / 512, ht⟩ (0 : Fin 2) * 512 + 512
    rw [e18.1]; show (i 0).val / 512 * 512 ≤ (i 0).val ∧ (i 0).val < (i 0).val / 512 * 512 + 512; omega
  | ⟨1, _⟩ =>
    show win0_18.index ⟨(i 0).val / 512, ht⟩ (1 : Fin 2) * 256 ≤ (i 1).val
      ∧ (i 1).val < win0_18.index ⟨(i 0).val / 512, ht⟩ (1 : Fin 2) * 256 + 256
    rw [e18.2]; omega

/-- What point t writes back to the new state's array is block t of the cell's whole-array function: row p of the block is
    row 512 t + p of the cell, over the same weights and biases at every point. -/
theorem flushed19_eq (c : Dev nD) (t : Fin cfg0.N) :
    (dats m 0 c).flushed 19 t = ((cfg0.win 19).blk t).view.read (Elt Ideal) (newState (argsOf m c)) := by
  rw [Cert.KernelIdeal.Value.flushed19]
  funext y
  obtain ⟨p, J, rfl⟩ : ∃ (p : Fin 512) (J : Fin 896), y = ix2 p J := ⟨y 0, y 1, eq_ix2 y⟩
  show out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p J)
    = newState (argsOf m c) (((cfg0.win 19).blk t).view.emb (ix2 p J))
  rw [emb19]
  refine (Cert.KernelIdeal.BlockValue.state_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p J).trans ?_
  rw [blk3, blk4, blk5, blk6, blk7, blk8, blk0, blk1, blk2]
  rfl

/-- An index of the new state's array is in point t's block iff each coordinate is in the block's range on its axis. -/
theorem mem_blk19 (t : Fin cfg0.N) (i : S32768x896.Idx) :
    i ∈ ((cfg0.win 19).blk t).view.set ↔ ∀ a : Fin 2, win0_19.index t a * S512x896.size a ≤ (i a).val
      ∧ (i a).val < win0_19.index t a * S512x896.size a + S512x896.size a := by
  show i ∈ ((View.whole main_v14_2).slice (win0_19.rect t)).set ↔ _
  rw [View.set_slice_whole, Rect.mem_set_unit]
  exact Iff.rfl

/-- The 64 blocks cover the new state's array: row r lies in the block of point r / 512. -/
theorem cover19 (i : S32768x896.Idx) :
    ∃ t : Fin cfg0.N, (cfg0.win 19).flush t = true ∧ i ∈ ((cfg0.win 19).blk t).view.set := by
  have hi0 : (i 0).val < 32768 := (i 0).isLt
  have hi1 : (i 1).val < 896 := (i 1).isLt
  have hN : grid0.N = 64 := N_0
  have ht : (i 0).val / 512 < grid0.N := by omega
  obtain ⟨e0, e1, e2, e3, e4, e5, e6, e7, e8, e9, e10, e11, e12, e13, e14, e15, e16, e17, e18, e19⟩ := idx_facts ⟨(i 0).val / 512, ht⟩
  refine ⟨⟨(i 0).val / 512, ht⟩, flush0_19 _, ?_⟩
  rw [mem_blk19]
  intro a
  match a with
  | ⟨0, _⟩ =>
    show win0_19.index ⟨(i 0).val / 512, ht⟩ (0 : Fin 2) * 512 ≤ (i 0).val
      ∧ (i 0).val < win0_19.index ⟨(i 0).val / 512, ht⟩ (0 : Fin 2) * 512 + 512
    rw [e19.1]; show (i 0).val / 512 * 512 ≤ (i 0).val ∧ (i 0).val < (i 0).val / 512 * 512 + 512; omega
  | ⟨1, _⟩ =>
    show win0_19.index ⟨(i 0).val / 512, ht⟩ (1 : Fin 2) * 896 ≤ (i 1).val
      ∧ (i 1).val < win0_19.index ⟨(i 0).val / 512, ht⟩ (1 : Fin 2) * 896 + 896
    rw [e19.2]; omega

/-- The coarse head's result array. -/
theorem final17 (c : Dev nD) : (dats m 0 c).arrAt 17 cfg0.N = outCoarse (argsOf m c) :=
  (dats m 0 c).arrAt_eq_of_cover 17 (outCoarse (argsOf m c)) (fun t _ => flushed17_eq m c t) cover17

/-- The fine head's result array. -/
theorem final18 (c : Dev nD) : (dats m 0 c).arrAt 18 cfg0.N = outFine (argsOf m c) :=
  (dats m 0 c).arrAt_eq_of_cover 18 (outFine (argsOf m c)) (fun t _ => flushed18_eq m c t) cover18

/-- The new state array. -/
theorem final19 (c : Dev nD) : (dats m 0 c).arrAt 19 cfg0.N = newState (argsOf m c) :=
  (dats m 0 c).arrAt_eq_of_cover 19 (newState (argsOf m c)) (fun t _ => flushed19_eq m c t) cover19

/-- Every weakly fair execution ends with the three results at the cell's functions of the arguments, the arguments
    unchanged. -/
theorem run : θ_run defs (onTc (τ := τ) (main (F := Ideal))) ⟨m, fun _ => 0, ρ⟩ fun r => ∀ c : Dev nD,
      r.2.mem ((c.tc : Thread nD τ).loc main_v14_0) = outCoarse (argsOf m c)
      ∧ r.2.mem ((c.tc : Thread nD τ).loc main_v14_1) = outFine (argsOf m c)
      ∧ r.2.mem ((c.tc : Thread nD τ).loc main_v14_2) = newState (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c => ⟨(h c).1.trans (final17 m c), (h c).2.1.trans (final18 m c),
      (h c).2.2.1.trans (final19 m c), (h c).2.2.2⟩) (Cert.KernelIdeal.Value.run_blocks m ρ)

end Cert.KernelIdeal.ArrayValue

end
-- ==== Proof.RefState.lean ====
/-
  The reference's new state, entry by entry.

  The reference forms the three projections as full matrix products, cuts their thirds out by slices, sets the coarse
  and the fine input projections side by side to the state's width, and computes the gates on the full width, the
  logistic function spelled 1 / (1 + e⁻ˣ). At entry (b, J) this is row b's new state at column J: in the coarse half
  (J < 448) the side-by-side arrays read their left operand, in the fine half their right one, and the fine projection's
  three-term sum is the two-term sum plus the scalar's term.
-/
import proofs.«136781_j82463372083317_1_alg».proof.Proof.Gen.ReferenceIdeal.Read
import proofs.«136781_j82463372083317_1_alg».proof.Proof.Spec
import proofs.«136781_j82463372083317_1_alg».proof.Proof.LibPlainDot
import Idealize.ShloMosaic.Lib.Pipeline.Value
import Idealize.ShloMosaic.Lib.ValueIdx
import Idealize.ShloMosaic.Lib.ValueLayout

noncomputable section

namespace Cert.ReferenceIdeal.RefState

open Cert.ReferenceIdeal Cert.ReferenceIdeal.Gen Cert.ReferenceIdeal.Read Idealize.ShloMosaic Idealize.ShloMosaic.TcCoe Idealize.ShloMosaic.ValueIdx Cert.GruCell

variable (A : Args)

/-- The recurrent product at an entry is row b's recurrent projection. -/
theorem rec_at (b : Fin 32768) (c : Fin 2688) :
    val_main_v0 (F := Ideal) A.h A.WR (ix2 b c) = rec (mat A.WR) (rowOf A.h b) c := by
  unfold val_main_v0
  exact Cert.PlainDot.dotGeneral_apply ⟨rfl, rfl, rfl, rfl, rfl, rfl⟩ rfl rfl none A.h A.WR b c

/-- The coarse input product at an entry is row b's coarse input projection. -/
theorem inC_at (b : Fin 32768) (c : Fin 1344) :
    val_main_v4 (F := Ideal) A.y A.WIc (ix2 b c) = inC (mat A.WIc) (rowOf A.y b) c := by
  unfold val_main_v4
  exact Cert.PlainDot.dotGeneral_apply ⟨rfl, rfl, rfl, rfl, rfl, rfl⟩ rfl rfl none A.y A.WIc b c

/-- The row (y₀, y₁, cc) set side by side, at an entry. -/
theorem yc_at (b : Fin 32768) (κ : Fin 3) :
    val_main_v8 (F := Ideal) A.y A.cc (ix2 b κ) = yc (rowOf A.y b) (A.cc (ix2 b 0)) κ := by
  unfold val_main_v8 yc
  by_cases hκ : κ.val < 2
  · rw [dif_pos hκ]
    exact concatenate_pair_apply_left 1 A.y A.cc concatenates_S32768x2_S32768x1_S32768x3_d1 (ix2 b κ) rfl (ix2 b ⟨κ.val, hκ⟩)
      (fun d => by match d with | ⟨0, _⟩ => rfl | ⟨1, _⟩ => rfl)
  · rw [dif_neg hκ]
    exact concatenate_pair_apply_right 1 A.y A.cc concatenates_S32768x2_S32768x1_S32768x3_d1 (ix2 b κ) rfl rfl (ix2 b 0)
      (fun d hd => by match d, hd with | ⟨0, _⟩, _ => rfl | ⟨1, _⟩, hd => exact absurd rfl hd)
      (by show 0 + 2 = κ.val; omega)

/-- The fine input product at an entry is row b's fine input projection. -/
theorem inF_at (b : Fin 32768) (c : Fin 1344) :
    val_main_v9 (F := Ideal) A.y A.cc A.WIf (ix2 b c) = inF (mat A.WIf) (rowOf A.y b) (A.cc (ix2 b 0)) c := by
  unfold val_main_v9
  rw [Cert.PlainDot.dotGeneral_apply ⟨rfl, rfl, rfl, rfl, rfl, rfl⟩ rfl rfl none (val_main_v8 (F := Ideal) A.y A.cc) A.WIf b c]
  rw [← inF_eq_sum]
  exact Finset.sum_congr rfl fun κ _ => by rw [yc_at]

/-! ### The thirds of the three products, and the side-by-side arrays -/

/-- The first third of the recurrent product. -/
theorem rec1_at (b : Fin 32768) (J : Fin 896) (c : Fin 2688) (hc : c.val = J.val) :
    val_main_v1 (F := Ideal) A.h A.WR (ix2 b J) = rec (mat A.WR) (rowOf A.h b) c := by
  rw [val_main_v1_apply, show idx_main_v1 (ix2 b J) = ix2 b c from
    funext fun a => Fin.ext (by match a with | ⟨0, _⟩ => rfl | ⟨1, _⟩ => exact hc.symm)]
  exact rec_at A b c

/-- The second third of the recurrent product. -/
theorem rec2_at (b : Fin 32768) (J : Fin 896) (c : Fin 2688) (hc : c.val = 896 + J.val) :
    val_main_v2 (F := Ideal) A.h A.WR (ix2 b J) = rec (mat A.WR) (rowOf A.h b) c := by
  rw [val_main_v2_apply, show idx_main_v2 (ix2 b J) = ix2 b c from
    funext fun a => Fin.ext (by match a with | ⟨0, _⟩ => rfl | ⟨1, _⟩ => exact hc.symm)]
  exact rec_at A b c

/-- The last third of the recurrent product. -/
theorem rec3_at (b : Fin 32768) (J : Fin 896) (c : Fin 2688) (hc : c.val = 1792 + J.val) :
    val_main_v3 (F := Ideal) A.h A.WR (ix2 b J) = rec (mat A.WR) (rowOf A.h b) c := by
  rw [val_main_v3_apply, show idx_main_v3 (ix2 b J) = ix2 b c from
    funext fun a => Fin.ext (by match a with | ⟨0, _⟩ => rfl | ⟨1, _⟩ => exact hc.symm)]
  exact rec_at A b c

/-- The thirds of the coarse input product. -/
theorem inC1_at (b : Fin 32768) (j : Fin 448) (c : Fin 1344) (hc : c.val = j.val) :
    val_main_v5 (F := Ideal) A.y A.WIc (ix2 b j) = inC (mat A.WIc) (rowOf A.y b) c := by
  rw [val_main_v5_apply, show idx_main_v5 (ix2 b j) = ix2 b c from
    funext fun a => Fin.ext (by match a with | ⟨0, _⟩ => rfl | ⟨1, _⟩ => exact hc.symm)]
  exact inC_at A b c
theorem inC2_at (b : Fin 32768) (j : Fin 448) (c : Fin 1344) (hc : c.val = 448 + j.val) :
    val_main_v6 (F := Ideal) A.y A.WIc (ix2 b j) = inC (mat A.WIc) (rowOf A.y b) c := by
  rw [val_main_v6_apply, show idx_main_v6 (ix2 b j) = ix2 b c from
    funext fun a => Fin.ext (by match a with | ⟨0, _⟩ => rfl | ⟨1, _⟩ => exact hc.symm)]
  exact inC_at A b c
theorem inC3_at (b : Fin 32768) (j : Fin 448) (c : Fin 1344) (hc : c.val = 896 + j.val) :
    val_main_v7 (F := Ideal) A.y A.WIc (ix2 b j) = inC (mat A.WIc) (rowOf A.y b) c := by
  rw [val_main_v7_apply, show idx_main_v7 (ix2 b j) = ix2 b c from
    funext fun a => Fin.ext (by match a with | ⟨0, _⟩ => rfl | ⟨1, _⟩ => exact hc.symm)]
  exact inC_at A b c

/-- The thirds of the fine input product. -/
theorem inF1_at (b : Fin 32768) (j : Fin 448) (c : Fin 1344) (hc : c.val = j.val) :
    val_main_v10 (F := Ideal) A.y A.cc A.WIf (ix2 b j) = inF (mat A.WIf) (rowOf A.y b) (A.cc (ix2 b 0)) c := by
  rw [val_main_v10_apply, show idx_main_v10 (ix2 b j) = ix2 b c from
    funext fun a => Fin.ext (by match a with | ⟨0, _⟩ => rfl | ⟨1, _⟩ => exact hc.symm)]
  exact inF_at A b c
theorem inF2_at (b : Fin 32768) (j : Fin 448) (c : Fin 1344) (hc : c.val = 448 + j.val) :
    val_main_v11 (F := Ideal) A.y A.cc A.WIf (ix2 b j) = inF (mat A.WIf) (rowOf A.y b) (A.cc (ix2 b 0)) c := by
  rw [val_main_v11_apply, show idx_main_v11 (ix2 b j) = ix2 b c from
    funext fun a => Fin.ext (by match a with | ⟨0, _⟩ => rfl | ⟨1, _⟩ => exact hc.symm)]
  exact inF_at A b c
theorem inF3_at (b : Fin 32768) (j : Fin 448) (c : Fin 1344) (hc : c.val = 896 + j.val) :
    val_main_v12 (F := Ideal) A.y A.cc A.WIf (ix2 b j) = inF (mat A.WIf) (rowOf A.y b) (A.cc (ix2 b 0)) c := by
  rw [val_main_v12_apply, show idx_main_v12 (ix2 b j) = ix2 b c from
    funext fun a => Fin.ext (by match a with | ⟨0, _⟩ => rfl | ⟨1, _⟩ => exact hc.symm)]
  exact inF_at A b c

/-- Two [32768, 448] arrays side by side, read in the left half. -/
theorem side_left (x₁ x₂ : S32768x448.Idx → EReal) (b : Fin 32768) (J : Fin 896) (hJ : J.val < 448) :
    concatenate S32768x896 1 [⟨S32768x448, x₁⟩, ⟨S32768x448, x₂⟩] concatenates_S32768x448_S32768x448_S32768x896_d1 (ix2 b J)
      = x₁ (ix2 b ⟨J.val, hJ⟩) :=
  concatenate_pair_apply_left 1 x₁ x₂ concatenates_S32768x448_S32768x448_S32768x896_d1 (ix2 b J) rfl (ix2 b ⟨J.val, hJ⟩)
    (fun d => by match d with | ⟨0, _⟩ => rfl | ⟨1, _⟩ => rfl)

/-- Two [32768, 448] arrays side by side, read in the right half. -/
theorem side_right (x₁ x₂ : S32768x448.Idx → EReal) (b : Fin 32768) (J : Fin 896) (hJ : 448 ≤ J.val) :
    concatenate S32768x896 1 [⟨S32768x448, x₁⟩, ⟨S32768x448, x₂⟩] concatenates_S32768x448_S32768x448_S32768x896_d1 (ix2 b J)
      = x₂ (ix2 b ⟨J.val - 448, by have := J.isLt; omega⟩) :=
  concatenate_pair_apply_right 1 x₁ x₂ concatenates_S32768x448_S32768x448_S32768x896_d1 (ix2 b J) rfl rfl
    (ix2 b ⟨J.val - 448, by have := J.isLt; omega⟩)
    (fun d hd => by match d, hd with | ⟨0, _⟩, _ => rfl | ⟨1, _⟩, hd => exact absurd rfl hd)
    (by show J.val - 448 + 448 = J.val; omega)

/-- The left halves of the three side-by-side arrays are the thirds of the coarse input projection. -/
theorem v13_left (b : Fin 32768) (J : Fin 896) (hJ : J.val < 448) (c : Fin 1344) (hc : c.val = J.val) :
    val_main_v13 (F := Ideal) A.y A.cc A.WIc A.WIf (ix2 b J) = inC (mat A.WIc) (rowOf A.y b) c := by
  unfold val_main_v13
  rw [side_left _ _ b J hJ]
  exact inC1_at A b ⟨J.val, hJ⟩ c hc
theorem v14_left (b : Fin 32768) (J : Fin 896) (hJ : J.val < 448) (c : Fin 1344) (hc : c.val = 448 + J.val) :
    val_main_v14 (F := Ideal) A.y A.cc A.WIc A.WIf (ix2 b J) = inC (mat A.WIc) (rowOf A.y b) c := by
  unfold val_main_v14
  rw [side_left _ _ b J hJ]
  exact inC2_at A b ⟨J.val, hJ⟩ c hc
theorem v15_left (b : Fin 32768) (J : Fin 896) (hJ : J.val < 448) (c : Fin 1344) (hc : c.val = 896 + J.val) :
    val_main_v15 (F := Ideal) A.y A.cc A.WIc A.WIf (ix2 b J) = inC (mat A.WIc) (rowOf A.y b) c := by
  unfold val_main_v15
  rw [side_left _ _ b J hJ]
  exact inC3_at A b ⟨J.val, hJ⟩ c hc

/-- The right halves of the three side-by-side arrays are the thirds of the fine input projection. -/
theorem v13_right (b : Fin 32768) (J : Fin 896) (hJ : 448 ≤ J.val) (c : Fin 1344) (hc : c.val = J.val - 448) :
    val_main_v13 (F := Ideal) A.y A.cc A.WIc A.WIf (ix2 b J) = inF (mat A.WIf) (rowOf A.y b) (A.cc (ix2 b 0)) c := by
  unfold val_main_v13
  rw [side_right _ _ b J hJ]
  exact inF1_at A b _ c hc
theorem v14_right (b : Fin 32768) (J : Fin 896) (hJ : 448 ≤ J.val) (c : Fin 1344) (hc : c.val = 448 + (J.val - 448)) :
    val_main_v14 (F := Ideal) A.y A.cc A.WIc A.WIf (ix2 b J) = inF (mat A.WIf) (rowOf A.y b) (A.cc (ix2 b 0)) c := by
  unfold val_main_v14
  rw [side_right _ _ b J hJ]
  exact inF2_at A b _ c hc
theorem v15_right (b : Fin 32768) (J : Fin 896) (hJ : 448 ≤ J.val) (c : Fin 1344) (hc : c.val = 896 + (J.val - 448)) :
    val_main_v15 (F := Ideal) A.y A.cc A.WIc A.WIf (ix2 b J) = inF (mat A.WIf) (rowOf A.y b) (A.cc (ix2 b 0)) c := by
  unfold val_main_v15
  rw [side_right _ _ b J hJ]
  exact inF3_at A b _ c hc

/-! ### The biases, spread over the rows -/

theorem bu_at (b : Fin 32768) (J : Fin 896) : val_main_v18 (F := Ideal) A.bu (ix2 b J) = vec A.bu J := by
  rw [val_main_v18_apply, val_main_v17_apply]
  exact congrArg A.bu (funext fun a => by match a with | ⟨0, _⟩ => rfl)
theorem br_at (b : Fin 32768) (J : Fin 896) : val_main_v28 (F := Ideal) A.br (ix2 b J) = vec A.br J := by
  rw [val_main_v28_apply, val_main_v27_apply]
  exact congrArg A.br (funext fun a => by match a with | ⟨0, _⟩ => rfl)
theorem be_at (b : Fin 32768) (J : Fin 896) : val_main_v39 (F := Ideal) A.be (ix2 b J) = vec A.be J := by
  rw [val_main_v39_apply, val_main_v38_apply]
  exact congrArg A.be (funext fun a => by match a with | ⟨0, _⟩ => rfl)

/-! ### The gates, the candidate and the new state, in the half at offset o -/

section Half

variable (o : ℕ) (ho : o + 448 ≤ 896) (inp : Fin 1344 → EReal) (b : Fin 32768) (j : Fin 448) (J : Fin 896)
  (hJ : J = ⟨o + j.val, by have := j.isLt; omega⟩)
  (h13 : val_main_v13 (F := Ideal) A.y A.cc A.WIc A.WIf (ix2 b J) = inp ⟨j.val, by have := j.isLt; omega⟩)
  (h14 : val_main_v14 (F := Ideal) A.y A.cc A.WIc A.WIf (ix2 b J) = inp ⟨448 + j.val, by have := j.isLt; omega⟩)
  (h15 : val_main_v15 (F := Ideal) A.y A.cc A.WIc A.WIf (ix2 b J) = inp ⟨896 + j.val, by have := j.isLt; omega⟩)

include hJ h13 in
/-- The update gate. -/
theorem gateU_ref : val_main_v25 (F := Ideal) A.y A.h A.cc A.WR A.WIc A.WIf A.bu (ix2 b J)
    = gateU (mat A.WR) (vec A.bu) (rowOf A.h b) o ho inp j := by
  rw [val_main_v25_apply, val_main_v24_apply, val_main_v23_apply, val_main_v22_apply, val_main_v21_apply,
    val_main_v20_apply, val_main_v19_apply, val_main_v16_apply,
    rec1_at A b J ⟨o + j.val, by have := j.isLt; omega⟩ (by rw [hJ]), h13, bu_at]
  subst hJ
  simp only [val_main_cst_apply, val_main_cst_0_apply, Ideal.hostDivf_def, Ideal.addf_def, Ideal.hostUnary_exp_def,
    Ideal.hostNegf_def, Ideal.negf_def, Ideal.ofBits_def, logistic_expand]
  rfl

include hJ h14 in
/-- The reset gate. -/
theorem gateR_ref : val_main_v35 (F := Ideal) A.y A.h A.cc A.WR A.WIc A.WIf A.br (ix2 b J)
    = gateR (mat A.WR) (vec A.br) (rowOf A.h b) o ho inp j := by
  rw [val_main_v35_apply, val_main_v34_apply, val_main_v33_apply, val_main_v32_apply, val_main_v31_apply,
    val_main_v30_apply, val_main_v29_apply, val_main_v26_apply,
    rec2_at A b J ⟨896 + o + j.val, by have := j.isLt; omega⟩ (by rw [hJ]; show 896 + o + j.val = 896 + (o + j.val); omega), h14, br_at]
  subst hJ
  simp only [val_main_cst_1_apply, val_main_cst_2_apply, Ideal.hostDivf_def, Ideal.addf_def, Ideal.hostUnary_exp_def,
    Ideal.hostNegf_def, Ideal.negf_def, Ideal.ofBits_def, logistic_expand]
  rfl

include hJ h14 h15 in
/-- The candidate state. -/
theorem cand_ref : val_main_v41 (F := Ideal) A.y A.h A.cc A.WR A.WIc A.WIf A.br A.be (ix2 b J)
    = cand (mat A.WR) (vec A.br) (vec A.be) (rowOf A.h b) o ho inp j := by
  rw [val_main_v41_apply, val_main_v40_apply, val_main_v37_apply, val_main_v36_apply,
    gateR_ref A o ho inp b j J hJ h14,
    rec3_at A b J ⟨1792 + o + j.val, by have := j.isLt; omega⟩ (by rw [hJ]; show 1792 + o + j.val = 1792 + (o + j.val); omega), h15, be_at]
  subst hJ
  simp only [Ideal.addf_def, Ideal.mulf_def, Ideal.hostUnary_tanh_def]
  rfl

include hJ h13 h14 h15 in
/-- The new state. -/
theorem half_ref : val_main_v46 (F := Ideal) A.y A.h A.cc A.WR A.WIc A.WIf A.bu A.br A.be (ix2 b J)
    = half (mat A.WR) (vec A.bu) (vec A.br) (vec A.be) (rowOf A.h b) o ho inp j := by
  rw [val_main_v46_apply, val_main_v42_apply, val_main_v45_apply, val_main_v44_apply, val_main_v43_apply,
    gateU_ref A o ho inp b j J hJ h13, cand_ref A o ho inp b j J hJ h14 h15]
  subst hJ
  simp only [val_main_cst_3_apply, Ideal.addf_def, Ideal.mulf_def, Ideal.subf_def, Ideal.ofBits_def]
  rfl

end Half

/-! ### The three statements -/

/-- The reference's new state array is the cell's. -/
theorem state_ref : val_main_v46 (F := Ideal) A.y A.h A.cc A.WR A.WIc A.WIf A.bu A.br A.be = newState A := by
  funext i
  obtain ⟨b, J, rfl⟩ : ∃ (b : Fin 32768) (J : Fin 896), i = ix2 b J := ⟨i 0, i 1, eq_ix2 i⟩
  show _ = state (mat A.WR) (mat A.WIc) (mat A.WIf) (vec A.bu) (vec A.br) (vec A.be) (rowOf A.y b) (rowOf A.h b)
    (A.cc (ix2 b 0)) J
  unfold state
  by_cases hJ : J.val < 448
  · -- the coarse half: the side-by-side arrays read their left operand
    rw [dif_pos hJ]
    exact half_ref A 0 (by decide) (inC (mat A.WIc) (rowOf A.y b)) b ⟨J.val, hJ⟩ J (Fin.ext (Nat.zero_add _).symm)
      (v13_left A b J hJ _ rfl) (v14_left A b J hJ _ rfl) (v15_left A b J hJ _ rfl)
  · -- the fine half: they read their right operand, 448 columns to the left
    rw [dif_neg hJ]
    have hJ' : 448 ≤ J.val := Nat.le_of_not_lt hJ
    exact half_ref A 448 (by decide) (inF (mat A.WIf) (rowOf A.y b) (A.cc (ix2 b 0))) b
      ⟨J.val - 448, by have := J.isLt; omega⟩ J (Fin.ext (by show J.val = 448 + (J.val - 448); omega))
      (v13_right A b J hJ' _ rfl) (v14_right A b J hJ' _ rfl) (v15_right A b J hJ' _ rfl)

/-- Its coarse half, cut out by a slice: row b at column j. -/
theorem coarse_ref (b : Fin 32768) (j : Fin 448) : val_main_v47 (F := Ideal) A.y A.h A.cc A.WR A.WIc A.WIf A.bu A.br A.be (ix2 b j) = coarseAt A b j := by
  rw [val_main_v47_apply, show idx_main_v47 (ix2 b j) = ix2 b ⟨j.val, by have := j.isLt; omega⟩ from
    funext fun a => by match a with | ⟨0, _⟩ => rfl | ⟨1, _⟩ => rfl]
  exact half_ref A 0 (by decide) (inC (mat A.WIc) (rowOf A.y b)) b j _ (Fin.ext (Nat.zero_add _).symm)
    (v13_left A b _ j.isLt _ rfl) (v14_left A b _ j.isLt _ rfl) (v15_left A b _ j.isLt _ rfl)

/-- Its fine half, cut out by a slice: row b at column j. -/
theorem fine_ref (b : Fin 32768) (j : Fin 448) : val_main_v48 (F := Ideal) A.y A.h A.cc A.WR A.WIc A.WIf A.bu A.br A.be (ix2 b j) = fineAt A b j := by
  rw [val_main_v48_apply, show idx_main_v48 (ix2 b j) = ix2 b ⟨448 + j.val, by have := j.isLt; omega⟩ from
    funext fun a => by match a with | ⟨0, _⟩ => rfl | ⟨1, _⟩ => rfl]
  have h448 : 448 ≤ 448 + j.val := Nat.le_add_right _ _
  exact half_ref A 448 (by decide) (inF (mat A.WIf) (rowOf A.y b) (A.cc (ix2 b 0))) b j _ rfl
    (v13_right A b _ h448 _ (by show j.val = 448 + j.val - 448; omega))
    (v14_right A b _ h448 _ (by show 448 + j.val = 448 + (448 + j.val - 448); omega))
    (v15_right A b _ h448 _ (by show 896 + j.val = 896 + (448 + j.val - 448); omega))

end Cert.ReferenceIdeal.RefState

end
-- ==== Proof.RefHeads.lean ====
/-
  The reference's two heads, entry by entry: each half of the new state times the first weight matrix, plus the bias
  broadcast over the rows, clamped below at zero, times the second weight matrix, plus the second bias.
-/
import proofs.«136781_j82463372083317_1_alg».proof.Proof.Gen.ReferenceIdeal.Read
import proofs.«136781_j82463372083317_1_alg».proof.Proof.RefState
import proofs.«136781_j82463372083317_1_alg».proof.Proof.Spec
import proofs.«136781_j82463372083317_1_alg».proof.Proof.LibPlainDot
import Idealize.ShloMosaic.Lib.Pipeline.Value
import Idealize.ShloMosaic.Lib.ValueIdx
import Idealize.ShloMosaic.Lib.ValueLayout

noncomputable section

namespace Cert.ReferenceIdeal.RefHeads

open Cert.ReferenceIdeal Cert.ReferenceIdeal.Gen Cert.ReferenceIdeal.Read Idealize.ShloMosaic Idealize.ShloMosaic.TcCoe Idealize.ShloMosaic.ValueIdx Cert.GruCell Cert.ReferenceIdeal.RefState

variable (A : Args)

/-! ## The index maps of the two heads at a pair of coordinates

  In a product of a [32768, 448] array with a [448, n] matrix, entry (b, q) reads the left factor at (b, κ) and the right
  one at (κ, q); a bias of length n, spread over one row and then over all rows, is read at (b, q) in its entry q. -/

theorem lidx49 (b : Fin 32768) (k κ : Fin 448) : lidx_main_v49 (ix2 b k) κ = ix2 b κ :=
  funext fun a => match a with | ⟨0, _⟩ => rfl | ⟨1, _⟩ => rfl
theorem ridx49 (b : Fin 32768) (k κ : Fin 448) : ridx_main_v49 (ix2 b k) κ = ix2 κ k :=
  funext fun a => match a with | ⟨0, _⟩ => rfl | ⟨1, _⟩ => rfl
theorem idx5051 (b : Fin 32768) (k : Fin 448) : idx_main_v50 (idx_main_v51 (ix2 b k)) = ix1 k :=
  funext fun a => match a with | ⟨0, _⟩ => rfl
theorem lidx54 (b : Fin 32768) (q : Fin 256) (κ : Fin 448) : lidx_main_v54 (ix2 b q) κ = ix2 b κ :=
  funext fun a => match a with | ⟨0, _⟩ => rfl | ⟨1, _⟩ => rfl
theorem ridx54 (b : Fin 32768) (q : Fin 256) (κ : Fin 448) : ridx_main_v54 (ix2 b q) κ = ix2 κ q :=
  funext fun a => match a with | ⟨0, _⟩ => rfl | ⟨1, _⟩ => rfl
theorem idx5556 (b : Fin 32768) (q : Fin 256) : idx_main_v55 (idx_main_v56 (ix2 b q)) = ix1 q :=
  funext fun a => match a with | ⟨0, _⟩ => rfl

theorem lidx58 (b : Fin 32768) (k κ : Fin 448) : lidx_main_v58 (ix2 b k) κ = ix2 b κ :=
  funext fun a => match a with | ⟨0, _⟩ => rfl | ⟨1, _⟩ => rfl
theorem ridx58 (b : Fin 32768) (k κ : Fin 448) : ridx_main_v58 (ix2 b k) κ = ix2 κ k :=
  funext fun a => match a with | ⟨0, _⟩ => rfl | ⟨1, _⟩ => rfl
theorem idx5960 (b : Fin 32768) (k : Fin 448) : idx_main_v59 (idx_main_v60 (ix2 b k)) = ix1 k :=
  funext fun a => match a with | ⟨0, _⟩ => rfl
theorem lidx63 (b : Fin 32768) (q : Fin 256) (κ : Fin 448) : lidx_main_v63 (ix2 b q) κ = ix2 b κ :=
  funext fun a => match a with | ⟨0, _⟩ => rfl | ⟨1, _⟩ => rfl
theorem ridx63 (b : Fin 32768) (q : Fin 256) (κ : Fin 448) : ridx_main_v63 (ix2 b q) κ = ix2 κ q :=
  funext fun a => match a with | ⟨0, _⟩ => rfl | ⟨1, _⟩ => rfl
theorem idx6465 (b : Fin 32768) (q : Fin 256) : idx_main_v64 (idx_main_v65 (ix2 b q)) = ix1 q :=
  funext fun a => match a with | ⟨0, _⟩ => rfl

/-! ## The hidden layers -/

/-- The coarse head's hidden layer at (b, k): the coarse half of row b times column k of the first matrix, plus the
    bias's entry k, clamped below at the zero word. -/
theorem hidden_coarse (b : Fin 32768) (k : Fin 448) :
    val_main_v53 (F := Ideal) A.y A.h A.cc A.WR A.WIc A.WIf A.bu A.br A.be A.W1 A.b1 (ix2 b k)
      = max ((∑ κ' : Fin 448, coarseAt A b κ' * A.W1 (ix2 κ' k)) + A.b1 (ix1 k)) zero := by
  rw [val_main_v53_apply, val_main_v52_apply, val_main_v49_apply, val_main_v51_apply, val_main_v50_apply,
    val_main_call0_v0_apply, val_main_call0_cst_apply]
  simp only [lidx49, ridx49, idx5051, coarse_ref]
  rfl

/-- The fine head's hidden layer at (b, k): the fine half of row b times column k of the first matrix, plus the
    bias's entry k, clamped below at the zero word. -/
theorem hidden_fine (b : Fin 32768) (k : Fin 448) :
    val_main_v62 (F := Ideal) A.y A.h A.cc A.WR A.WIc A.WIf A.bu A.br A.be A.W3 A.b3 (ix2 b k)
      = max ((∑ κ' : Fin 448, fineAt A b κ' * A.W3 (ix2 κ' k)) + A.b3 (ix1 k)) zero := by
  rw [val_main_v62_apply, val_main_v61_apply, val_main_v58_apply, val_main_v60_apply, val_main_v59_apply,
    val_main_call1_v0_apply, val_main_call1_cst_apply]
  simp only [lidx58, ridx58, idx5960, fine_ref]
  rfl

/-! ## The two heads -/

/-- The reference's coarse head array is the cell's. -/
theorem outCoarse_ref : val_main_v57 (F := Ideal) A.y A.h A.cc A.WR A.WIc A.WIf A.bu A.br A.be A.W1 A.b1 A.W2 A.b2 = outCoarse A := by
  funext i
  obtain ⟨b, q, rfl⟩ : ∃ (b : Fin 32768) (q : Fin 256), i = ix2 b q := ⟨i 0, i 1, eq_ix2 i⟩
  rw [val_main_v57_apply, val_main_v54_apply, val_main_v56_apply, val_main_v55_apply]
  simp only [lidx54, ridx54, idx5556, hidden_coarse]
  rfl

/-- The reference's fine head array is the cell's. -/
theorem outFine_ref : val_main_v66 (F := Ideal) A.y A.h A.cc A.WR A.WIc A.WIf A.bu A.br A.be A.W3 A.b3 A.W4 A.b4 = outFine A := by
  funext i
  obtain ⟨b, q, rfl⟩ : ∃ (b : Fin 32768) (q : Fin 256), i = ix2 b q := ⟨i 0, i 1, eq_ix2 i⟩
  rw [val_main_v66_apply, val_main_v63_apply, val_main_v65_apply, val_main_v64_apply]
  simp only [lidx63, ridx63, idx6465, hidden_fine]
  rfl

end Cert.ReferenceIdeal.RefHeads

end
-- ==== Proof.RefValue.lean ====
/-
  The reference computes the cell on whole arrays: the three projections as full matrix products, their thirds cut out
  by slices, the coarse and fine input projections set side by side to the full state width, the gates on the full
  width with the logistic function spelled 1 / (1 + e⁻ˣ), and the two heads on the two halves of the new state.
  Entry by entry this is the cell's row function at that entry's row.
-/
import proofs.«136781_j82463372083317_1_alg».proof.Proof.Gen.ReferenceIdeal.Read
import proofs.«136781_j82463372083317_1_alg».proof.Proof.Spec
import proofs.«136781_j82463372083317_1_alg».proof.Proof.RefState
import proofs.«136781_j82463372083317_1_alg».proof.Proof.RefHeads
import Idealize.ShloMosaic.Lib.Pipeline.Value
import Idealize.ShloMosaic.Lib.ValueIdx
import Idealize.ShloMosaic.Lib.ValueLayout

noncomputable section

namespace Cert.ReferenceIdeal.RefValue

open Cert.ReferenceIdeal Cert.ReferenceIdeal.Gen Cert.ReferenceIdeal.Value Idealize.ShloMosaic Idealize.ShloMosaic.TcCoe Idealize.SL.Sem
open Idealize.ShloMosaic.ValueIdx Cert.GruCell

variable (m : (ℓ : Loc nD τ sig) → Buf (Elt Ideal) ℓ) (ρ : Dev nD → PrngReg)

/-- The argument arrays as the program is launched on them. -/
def argsOf (c : Dev nD) : Args where
  y := m ((c.tc : Thread nD τ).loc main_arg0)
  h := m ((c.tc : Thread nD τ).loc main_arg1)
  cc := m ((c.tc : Thread nD τ).loc main_arg2)
  WR := m ((c.tc : Thread nD τ).loc main_arg3)
  WIc := m ((c.tc : Thread nD τ).loc main_arg4)
  WIf := m ((c.tc : Thread nD τ).loc main_arg5)
  bu := m ((c.tc : Thread nD τ).loc main_arg6)
  br := m ((c.tc : Thread nD τ).loc main_arg7)
  be := m ((c.tc : Thread nD τ).loc main_arg8)
  W1 := m ((c.tc : Thread nD τ).loc main_arg9)
  b1 := m ((c.tc : Thread nD τ).loc main_arg10)
  W2 := m ((c.tc : Thread nD τ).loc main_arg11)
  b2 := m ((c.tc : Thread nD τ).loc main_arg12)
  W3 := m ((c.tc : Thread nD τ).loc main_arg13)
  b3 := m ((c.tc : Thread nD τ).loc main_arg14)
  W4 := m ((c.tc : Thread nD τ).loc main_arg15)
  b4 := m ((c.tc : Thread nD τ).loc main_arg16)

/-- The coarse head's result. -/
theorem res57 (c : Dev nD) : res_main_v57 m c = outCoarse (argsOf m c) :=
  (Cert.ReferenceIdeal.Read.val_main_v57_eq m c).trans (Cert.ReferenceIdeal.RefHeads.outCoarse_ref (argsOf m c))

/-- The fine head's result. -/
theorem res66 (c : Dev nD) : res_main_v66 m c = outFine (argsOf m c) :=
  (Cert.ReferenceIdeal.Read.val_main_v66_eq m c).trans (Cert.ReferenceIdeal.RefHeads.outFine_ref (argsOf m c))

/-- The new state. -/
theorem res46 (c : Dev nD) : res_main_v46 m c = newState (argsOf m c) :=
  (Cert.ReferenceIdeal.Read.val_main_v46_eq m c).trans (Cert.ReferenceIdeal.RefState.state_ref (argsOf m c))

/-- Every weakly fair execution ends with the three results at the cell's functions of the arguments, the arguments
    unchanged. -/
theorem run : θ_run defs (onTc (τ := τ) (main (F := Ideal))) ⟨m, fun _ => 0, ρ⟩ fun r => ∀ c : Dev nD,
      r.2.mem ((c.tc : Thread nD τ).loc main_v57) = outCoarse (argsOf m c)
      ∧ r.2.mem ((c.tc : Thread nD τ).loc main_v66) = outFine (argsOf m c)
      ∧ r.2.mem ((c.tc : Thread nD τ).loc main_v46) = newState (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c => ⟨(h c).1.trans (res57 m c), (h c).2.1.trans (res66 m c),
      (h c).2.2.1.trans (res46 m c), (h c).2.2.2⟩) (Cert.ReferenceIdeal.Value.run (F := Ideal) m ρ)

end Cert.ReferenceIdeal.RefValue

end
-- ==== Proof.lean ====
/-
  The batch-tiled kernel and the whole-array reference compute one function: a gated recurrent cell step with two dense
  heads, row by row. Both runs end with the three results at the cell's whole-array functions (Proof/Spec.lean) of the
  argument arrays: the kernel's by its blocks (Proof/KernelBlock.lean, Proof/KernelArray.lean), the reference's operation
  by operation (Proof/RefValue.lean). The two programs differ only in arrangement: the kernel forms each projection's
  thirds and halves by separate products over column slices of the weights, writes the third term of the three-term fine
  projection apart, and has the logistic function as one operation where the reference spells 1 / (1 + e⁻ˣ); changes of
  float format are the identity on the extended reals. No step needs the inputs finite.
-/
import proofs.«136781_j82463372083317_1_alg».proof.Defs
import proofs.«136781_j82463372083317_1_alg».proof.Proof.Gen.Kernel
import proofs.«136781_j82463372083317_1_alg».proof.Proof.Gen.Kernel.Skeleton
import proofs.«136781_j82463372083317_1_alg».proof.Proof.Gen.Kernel.Launch
import proofs.«136781_j82463372083317_1_alg».proof.Proof.Gen.Kernel.Points
import proofs.«136781_j82463372083317_1_alg».proof.Proof.Gen.Kernel.Frame
import proofs.«136781_j82463372083317_1_alg».proof.Proof.Gen.KernelIdeal
import proofs.«136781_j82463372083317_1_alg».proof.Proof.Gen.KernelIdeal.Skeleton
import proofs.«136781_j82463372083317_1_alg».proof.Proof.Gen.KernelIdeal.Launch
import proofs.«136781_j82463372083317_1_alg».proof.Proof.Gen.KernelIdeal.Points
import proofs.«136781_j82463372083317_1_alg».proof.Proof.Gen.KernelIdeal.Frame
import proofs.«136781_j82463372083317_1_alg».proof.Proof.Gen.ReferenceIdeal
import proofs.«136781_j82463372083317_1_alg».proof.Proof.Gen.Pre_finite_inputs
import proofs.«136781_j82463372083317_1_alg».proof.Proof.Gen.KernelIdeal.Value
import proofs.«136781_j82463372083317_1_alg».proof.Proof.Gen.ReferenceIdeal.Run
import proofs.«136781_j82463372083317_1_alg».proof.Proof.Gen.ReferenceIdeal.Read
import proofs.«136781_j82463372083317_1_alg».proof.Proof.KernelArray
import proofs.«136781_j82463372083317_1_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- Memories that agree on the seventeen arguments give the two programs the same argument arrays. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.RefValue.argsOf m' c = Cert.KernelIdeal.ArrayValue.argsOf m c := by
  obtain ⟨h0, h1, h2, h3, h4, h5, h6, h7, h8, h9, h10, h11, h12, h13, h14, h15, h16⟩ := h
  unfold Cert.ReferenceIdeal.RefValue.argsOf Cert.KernelIdeal.ArrayValue.argsOf
  rw [h0, h1, h2, h3, h4, h5, h6, h7, h8, h9, h10, h11, h12, h13, h14, h15, h16]

theorem algebraic : Cert.algebraic_KernelIdeal_ReferenceIdeal := by
  intro m ρ m' ρ' _ hagree
  refine ⟨fun c => Cert.GruCell.outCoarse (Cert.KernelIdeal.ArrayValue.argsOf m c),
    fun c => Cert.GruCell.outFine (Cert.KernelIdeal.ArrayValue.argsOf m c),
    fun c => Cert.GruCell.newState (Cert.KernelIdeal.ArrayValue.argsOf m c),
    Cert.KernelIdeal.ArrayValue.run m ρ, ?_⟩
  refine (θ_run Cert.ReferenceIdeal.defs _ _).mono (fun r h c => ?_) (Cert.ReferenceIdeal.RefValue.run m' ρ')
  have hc := h c
  rw [args_agree m m' c (hagree c)] at hc
  exact hc

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
